-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v19)) (v3 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_v21) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_v25) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x16 : Shape := ⟨2, ![10000, 16]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x16 : S_.BroadcastsInDim S10000x16 (![] : Fin 0 → Fin S10000x16.rank)
  reducesTo_S10000x16_S_d0_1 : S10000x16.ReducesTo [0, 1] S_

variable [Facts]

def fn {F : FTy → Type} [FloatOps F] (main_arg0 : FVec F S10000x10000 .f32) (main_arg1 : FVec F S10000x10000 .f32) (main_arg2 : FVec F S10000x16 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x16 .f32 := Host.absf main_arg2
  let main_cst_2 : FVec F S_ .f32 := constant S_ .f32 0x7F800000#32
  let main_v10 : FVec F S10000x16 .f32 := broadcastInDim S10000x16 ![] bcast_S_S10000x16 main_cst_2
  let main_v11 : IVec S10000x16 1 := cmpf .olt main_v9 main_v10
  let main_c_3 : IVec S_ 1 := constantI S_ 1 1#1
  let main_v12 : IVec S_ 1 := (fun x v => Host.reduce IntOp.andi x v reducesTo_S10000x16_S_d0_1 h_S_) main_v11 main_c_3
  let main_v13 : IVec S_ 1 := andi main_v8 main_v12
  main_v13
-- ==== Kernel.lean ====
abbrev S10000x10000 : Shape := ⟨2, ![10000, 10000]⟩
abbrev S10000x16 : Shape := ⟨2, ![10000, 16]⟩
abbrev S10000x1 : Shape := ⟨2, ![10000, 1]⟩
abbrev S1x1 : Shape := ⟨2, ![1, 1]⟩
abbrev S80x10000 : Shape := ⟨2, ![80, 10000]⟩
abbrev S80x16 : Shape := ⟨2, ![80, 16]⟩
abbrev S80x1 : Shape := ⟨2, ![80, 1]⟩
abbrev S80 : Shape := ⟨1, ![80]⟩
abbrev S1 : Shape := ⟨1, ![1]⟩
abbrev S10000 : Shape := ⟨1, ![10000]⟩
abbrev S_ : Shape := ⟨0, ![]⟩
abbrev S16 : Shape := ⟨1, ![16]⟩

abbrev nBuf : Space → Nat
  | .hbm => 36
  | .vmem => 12
  | .smem => 0
  | _ => 0

abbrev bufTy : (tb : Table) → Fin (tcTables nBuf tb) → BufTy
  | .hbm, ⟨0, _⟩ => ⟨S10000x10000, .f32⟩
  | .hbm, ⟨1, _⟩ => ⟨S10000x10000, .f32⟩
  | .hbm, ⟨2, _⟩ => ⟨S10000x16, .f32⟩
  | .hbm, ⟨3, _⟩ => ⟨S10000x1, .f32⟩
  | .hbm, ⟨4, _⟩ => ⟨S10000x1, .f32⟩
  | .hbm, ⟨5, _⟩ => ⟨S1x1, .f32⟩
  | .hbm, ⟨6, _⟩ => ⟨S10000, .f32⟩
  | .hbm, ⟨7, _⟩ => ⟨S10000, .f32⟩
  | .hbm, ⟨8, _⟩ => ⟨S_, .f32⟩
  | .hbm, ⟨9, _⟩ => ⟨S10000, .f32⟩
  | .hbm, ⟨10, _⟩ => ⟨S10000, .f32⟩
  | .hbm, ⟨11, _⟩ => ⟨S10000, .f32⟩
  | .hbm, ⟨12, _⟩ => ⟨S10000, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000, .f32⟩
  | .hbm, ⟨35, _⟩ => ⟨S10000, .f32⟩
  | .local _ .vmem, ⟨0, _⟩ => ⟨S80x10000, .f32⟩
  | .local _ .vmem, ⟨1, _⟩ => ⟨S80x10000, .f32⟩
  | .local _ .vmem, ⟨2, _⟩ => ⟨S80x10000, .f32⟩
  | .local _ .vmem, ⟨3, _⟩ => ⟨S80x10000, .f32⟩
  | .local _ .vmem, ⟨4, _⟩ => ⟨S80x16, .f32⟩
  | .local _ .vmem, ⟨5, _⟩ => ⟨S80x16, .f32⟩
  | .local _ .vmem, ⟨6, _⟩ => ⟨S10000x16, .f32⟩
  | .local _ .vmem, ⟨7, _⟩ => ⟨S80x1, .f32⟩
  | .local _ .vmem, ⟨8, _⟩ => ⟨S80x1, .f32⟩
  | .local _ .vmem, ⟨9, _⟩ => ⟨S80x1, .f32⟩
  | .local _ .vmem, ⟨10, _⟩ => ⟨S80x1, .f32⟩
  | .local _ .vmem, ⟨11, _⟩ => ⟨S1x1, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_call0_v0 : Ref sig .tc := ⟨.hbm, 15, rfl⟩
abbrev main_call0_cst : Ref sig .tc := ⟨.hbm, 16, rfl⟩
abbrev main_call0_v1 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S80x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S80x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S80x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S10000x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S80x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S80x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S80x10000_S80x10000_0_0 : ∀ a, (![0, 0] : Fin 2 → Nat) a + S80x10000.size a ≤ S80x10000.size a
  h_S80x10000 : 0 < S80x10000.numel
  inb_S80x16_S80x16_0_0 : ∀ a, (![0, 0] : Fin 2 → Nat) a + S80x16.size a ≤ S80x16.size a
  h_S80x16 : 0 < S80x16.numel
  inb_S10000x16_S10000x16_0_0 : ∀ a, (![0, 0] : Fin 2 → Nat) a + S10000x16.size a ≤ S10000x16.size a
  h_S10000x16 : 0 < S10000x16.numel
  bitsLt_bf16_f32 : FTy.bits .bf16 < FTy.bits .f32
  reduces_S80x16_S80 : S80x16.Reduces [1] S80
  shapeCasts_S80_S80x1 : S80.ShapeCasts S80x1
  inb_S80x1_S80x1_0_0 : ∀ a, (![0, 0] : Fin 2 → Nat) a + S80x1.size a ≤ S80x1.size a
  h_S80x1 : 0 < S80x1.numel
  reduces_S80x10000_S80 : S80x10000.Reduces [1] S80
  reduces_S80x1_S1 : S80x1.Reduces [0] S1
  shapeCasts_S1_S1x1 : S1.ShapeCasts S1x1
  shapeCasts_S1x1_S1x1 : S1x1.ShapeCasts S1x1
  shapeCasts_S10000x1_S10000 : S10000x1.ShapeCasts S10000
  shapeCasts_S1x1_S_ : S1x1.ShapeCasts S_
  bcast_S_S10000 : S_.BroadcastsInDim S10000 (![] : Fin 0 → Fin S10000.rank)
  reducesTo_S10000x16_S16_d0 : S10000x16.ReducesTo [0] S16
  h_S_ : 0 < S_.numel
  reducesTo_S16_S_d0 : S16.ReducesTo [0] S_
  reducesTo_S10000_S_d0 : S10000.ReducesTo [0] S_
  dot_S80x10000_S10000x16_S80x16_1_0_0_1_n_n_wf : DotDims.WF S80x10000 S10000x16 S80x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S80x10000.size a ≤ S10000x10000.size a
  hwx0_0 : ∀ i : grid0.Coords, EltTy.bits .f32 = 32 ∨ (Rect.block (s := S10000x10000) S80x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S80x10000.size a ≤ S10000x10000.size a
  hwx0_1 : ∀ i : grid0.Coords, EltTy.bits .f32 = 32 ∨ (Rect.block (s := S10000x10000) S80x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S80x16.size a ≤ S10000x16.size a
  hwx0_2 : ∀ i : grid0.Coords, EltTy.bits .f32 = 32 ∨ (Rect.block (s := S10000x16) S80x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10000x16.size a ≤ S10000x16.size a
  hwx0_3 : ∀ i : grid0.Coords, EltTy.bits .f32 = 32 ∨ (Rect.block (s := S10000x16) S10000x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S80x1.size a ≤ S10000x1.size a
  hwx0_4 : ∀ i : grid0.Coords, EltTy.bits .f32 = 32 ∨ (Rect.block (s := S10000x1) S80x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S80x1.size a ≤ S10000x1.size a
  hwx0_5 : ∀ i : grid0.Coords, EltTy.bits .f32 = 32 ∨ (Rect.block (s := S10000x1) S80x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

def dot_S80x10000_S10000x16_S80x16_1_0_0_1_n_n : DotDims S80x10000 S10000x16 S80x16 where
  lhsContracting := [1]
  rhsContracting := [0]
  lhsNonContracting := [0]
  rhsNonContracting := [1]
  lhsBatch := []
  rhsBatch := []
  wf := dot_S80x10000_S10000x16_S80x16_1_0_0_1_n_n_wf

abbrev win0_0 : Pipeline.Window sig grid0 :=
  Pipeline.Window.ofSpec (Memref.whole main_arg0) S80x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S80x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S80x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S10000x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S80x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S80x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S10000x16 : Shape := ⟨2, ![10000, 16]⟩
abbrev S_ : Shape := ⟨0, ![]⟩
abbrev S10000 : Shape := ⟨1, ![10000]⟩
abbrev S16 : Shape := ⟨1, ![16]⟩

abbrev nBuf : Space → Nat
  | .hbm => 41
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x10000, .f32⟩
  | .hbm, ⟨2, _⟩ => ⟨S10000x16, .f32⟩
  | .hbm, ⟨3, _⟩ => ⟨S_, .f32⟩
  | .hbm, ⟨4, _⟩ => ⟨S_, .f32⟩
  | .hbm, ⟨5, _⟩ => ⟨S10000x16, .f32⟩
  | .hbm, ⟨6, _⟩ => ⟨S10000x16, .f32⟩
  | .hbm, ⟨7, _⟩ => ⟨S_, .f32⟩
  | .hbm, ⟨8, _⟩ => ⟨S10000, .f32⟩
  | .hbm, ⟨9, _⟩ => ⟨S10000, .f32⟩
  | .hbm, ⟨10, _⟩ => ⟨S10000, .f32⟩
  | .hbm, ⟨11, _⟩ => ⟨S10000x16, .f32⟩
  | .hbm, ⟨12, _⟩ => ⟨S10000x16, .f32⟩
  | .hbm, ⟨13, _⟩ => ⟨S_, .f32⟩
  | .hbm, ⟨14, _⟩ => ⟨S10000, .f32⟩
  | .hbm, ⟨15, _⟩ => ⟨S10000, .f32⟩
  | .hbm, ⟨16, _⟩ => ⟨S10000, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S10000, .f32⟩
  | .hbm, ⟨38, _⟩ => ⟨S10000, .f32⟩
  | .hbm, ⟨39, _⟩ => ⟨S10000, .f32⟩
  | .hbm, ⟨40, _⟩ => ⟨S10000, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_call0_v0 : Ref sig .tc := ⟨.hbm, 19, rfl⟩
abbrev main_call0_cst : Ref sig .tc := ⟨.hbm, 20, rfl⟩
abbrev main_call0_v1 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_cst_6 : Ref sig .tc := ⟨.hbm, 30, rfl⟩
abbrev main_v17 : Ref sig .tc := ⟨.hbm, 31, rfl⟩
abbrev main_cst_7 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]

class Facts₀ : Prop where
  reducesTo_S10000x10000_S_d0_1 : S10000x10000.ReducesTo [0, 1] S_
  h_S_ : 0 < S_.numel
  reducesTo_S10000x16_S10000_d1 : S10000x16.ReducesTo [1] S10000
  bcast_S_S10000 : S_.BroadcastsInDim S10000 (![] : Fin 0 → Fin S10000.rank)
  reducesTo_S10000x16_S16_d0 : S10000x16.ReducesTo [0] S16
  reducesTo_S16_S_d0 : S16.ReducesTo [0] S_
  reducesTo_S10000_S_d0 : S10000.ReducesTo [0] S_
  dot_S10000x10000_S10000x16_S10000x16_1_0_0_1_n_n_wf : DotDims.WF S10000x10000 S10000x16 S10000x16 [1] [0] [0] [1] [] []

variable [Facts₀]

def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.K.Data.lean ====
/-
  The proof data of the one pipelined region, at any float instance.

  The region walks 125 points; point t handles rows 80t … 80t+79.  Its seven windows: the row blocks of the two
  N×N matrices (0, 1) and of the N×16 matrix (2), that matrix whole (3: the same array as window 2), the two
  per-row outputs (4, 5: each block is a function of the point's input blocks alone) and the 1×1 running total
  (6: reset at point 0, then at every point the block's sum is added to what the point before left).
-/
import proofs.«121518_j4621384810785_1_alg».proof.Proof.Gen.Kernel.Launch
import proofs.«121518_j4621384810785_1_alg».proof.Proof.Gen.Kernel.Skeleton
import proofs.«121518_j4621384810785_1_alg».proof.Proof.Gen.Kernel.Points
import Idealize.ShloMosaic.Lib.Pipeline.FrameBody
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: as launched (nothing runs before the region). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input blocks at their literal types: rows 80t… of the first and second matrix and of the N×16 matrix, and that matrix whole. -/
abbrev adjBlk (c : Dev nD) (t : Fin cfg0.N) : Vec F S80x10000 .f32 := iblk m c 0 t
abbrev attBlk (c : Dev nD) (t : Fin cfg0.N) : Vec F S80x10000 .f32 := iblk m c 1 t
abbrev outBlk (c : Dev nD) (t : Fin cfg0.N) : Vec F S80x16 .f32 := iblk m c 2 t
abbrev outAll (c : Dev nD) (t : Fin cfg0.N) : Vec F S10000x16 .f32 := iblk m c 3 t

/-- The running total after point `n`: at point 0 the block's sum added to the zero the body has just stored, later
    the block's sum added to what the point before left. -/
def accAt (c : Dev nD) : (n : ℕ) → n < cfg0.N → Vec F S1x1 .f32
  | 0, hn => k0_pay5 (adjBlk m c ⟨0, hn⟩) (k0_pay1 (F := F))
  | n + 1, hn => k0_pay5 (adjBlk m c ⟨n + 1, hn⟩) (accAt c n (Nat.lt_of_succ_lt hn))

theorem accAt_zero (c : Dev nD) (hn : 0 < cfg0.N) : accAt m c 0 hn = k0_pay5 (adjBlk m c ⟨0, hn⟩) (k0_pay1 (F := F)) := rfl
theorem accAt_succ (c : Dev nD) (n : ℕ) (hn : n + 1 < cfg0.N) :
    accAt m c (n + 1) hn = k0_pay5 (adjBlk m c ⟨n + 1, hn⟩) (accAt m c n (Nat.lt_of_succ_lt hn)) := rfl

/-- The proof data on core `c`: the arrays as launched; after the body at point `t` each input's buffer at its block,
    the two per-row outputs at the body's stored values of the point's blocks, the running total at `accAt`; the two
    windows on the N×16 matrix hold one half of it each; the invariant is the scoped rest and the generator register;
    nothing owed. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (adjBlk m c t) (outBlk m c t) (outAll m c t)
    | ⟨5, _⟩ => k0_pay4 (attBlk m c t) (outBlk m c t) (outAll m c t)
    | ⟨6, _⟩ => accAt m c t.val t.isLt
  Φ _ := Pipeline.ΦA spec0 c
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
    | ⟨6, _⟩ => fullShare
  owed _ := 0

theorem A_eq (c : Dev nD) (w : Fin cfg0.W) : (dats m c).A w = V m c (Pipeline.arrRef spec0 w) := by
  dsimp only [dats]

theorem after0_0 (c : Dev nD) (t : Fin cfg0.N) : (dats m c).after 0 t = iblk m c 0 t := by dsimp only [dats]
theorem after0_1 (c : Dev nD) (t : Fin cfg0.N) : (dats m c).after 1 t = iblk m c 1 t := by dsimp only [dats]
theorem after0_2 (c : Dev nD) (t : Fin cfg0.N) : (dats m c).after 2 t = iblk m c 2 t := by dsimp only [dats]
theorem after0_3 (c : Dev nD) (t : Fin cfg0.N) : (dats m c).after 3 t = iblk m c 3 t := by dsimp only [dats]
theorem after0_4 (c : Dev nD) (t : Fin cfg0.N) :
    (dats m c).after 4 t = k0_pay3 (adjBlk m c t) (outBlk m c t) (outAll m c t) := by dsimp only [dats]
theorem after0_5 (c : Dev nD) (t : Fin cfg0.N) :
    (dats m c).after 5 t = k0_pay4 (attBlk m c t) (outBlk m c t) (outAll m c t) := by dsimp only [dats]
theorem after0_6 (c : Dev nD) (t : Fin cfg0.N) : (dats m c).after 6 t = accAt m c t.val t.isLt := by dsimp only [dats]

end Cert.Kernel.Hand

end
-- ==== Proof.K.Body.lean ====
/-
  The body obligation of the region: at every point the kernel function, run on the windows' current staging
  buffers holding what the pipeline put there, leaves what the proof data say.

  The function zeroes the 1×1 running total at the first point only, loads its four input blocks whole, stores the
  two per-row outputs whole, and adds the block's sum to the running total read back.  It is run once per case of
  that condition on any whole staging buffers; the pipeline's schedule says what each buffer holds when it is called.
-/
import proofs.«121518_j4621384810785_1_alg».proof.Proof.K.Data
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.Kernel.Hand

/-! ## The branch condition -/

/-- The condition of the function's one branch, from the grid coordinates: the point is the first. -/
abbrev cond0 (i : grid0.Coords) : Prop := (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val % 125 = 0 :=
  (by decide +kernel : ∀ t : Fin grid0.N, cond0 (grid0.coords t) ↔ t.val % 125 = 0)

/-- The zero offsets of every access, as a constant function. -/
theorem hz2 : (![0, 0] : Fin 2 → Nat) = fun _ => 0 := funext fun a => by fin_cases a <;> rfl

/-! ## The function on any whole staging buffers, once per case -/

/-- A buffer whose last store went through its whole shape reads that store's value, whatever was stored before. -/
theorem read_whole_store {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩), View.canon_cons_unit_zero h]

set_option maxHeartbeats 1000000 in
/-- At the first point: the running total's buffer, at anything, is zeroed; the inputs are read whole and handed back as
    they were; the per-row outputs' buffers, at anything, end at the stored values of the blocks; the running total's
    ends at the block's sum added to the zero read back. -/
theorem runA (c : Dev nD) (i : grid0.Coords) (arg1 : Memref sig .tc .vmem S80x10000 .f32) (harg1 : arg1.IsWhole) (arg2 : Memref sig .tc .vmem S80x10000 .f32) (harg2 : arg2.IsWhole) (arg3 : Memref sig .tc .vmem S80x16 .f32) (harg3 : arg3.IsWhole) (arg4 : Memref sig .tc .vmem S10000x16 .f32) (harg4 : arg4.IsWhole) (arg5 : Memref sig .tc .vmem S80x1 .f32) (harg5 : arg5.IsWhole) (arg6 : Memref sig .tc .vmem S80x1 .f32) (harg6 : arg6.IsWhole) (arg7 : Memref sig .tc .vmem S1x1 .f32) (harg7 : arg7.IsWhole) (hc0 : cond0 i)
    (x0 x1 : Vec F S80x10000 .f32) (x2 : Vec F S80x16 .f32) (x3 : Vec F S10000x16 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k0_pay3 x0 x2 x3)
            ∗ owns (c : Thread nD τ) arg6 fullShare (k0_pay4 x1 x2 x3) ∗ owns (c : Thread nD τ) arg7 fullShare (k0_pay5 x0 (k0_pay1 (F := F)))) -∗ K ⟨⟩))
      ⊢ wp frame (wpE (defs₀ (F := F)) Variants.none c none) E (cc0__kernel i arg1 harg1 arg2 harg2 arg3 harg3 arg4 harg4 arg5 harg5 arg6 harg6 arg7 harg7) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg1.eq_unread hf0; obtain rfl := harg2.eq_unread hf1; obtain rfl := harg3.eq_unread hf2; obtain rfl := harg4.eq_unread hf3
  have e1 : View.readAt (Elt F) arg1.view (Rect.unit ![0, 0] S80x10000.size inb_S80x10000_S80x10000_0_0).toLoadRect (harg1.unread x0) = x0 := by
    rw [View.readAt_eq_ld, harg1.read_unread, View.ld_unit_zero hz2]
  have e2 : View.readAt (Elt F) arg2.view (Rect.unit ![0, 0] S80x10000.size inb_S80x10000_S80x10000_0_0).toLoadRect (harg2.unread x1) = x1 := by
    rw [View.readAt_eq_ld, harg2.read_unread, View.ld_unit_zero hz2]
  have e3 : View.readAt (Elt F) arg3.view (Rect.unit ![0, 0] S80x16.size inb_S80x16_S80x16_0_0).toLoadRect (harg3.unread x2) = x2 := by
    rw [View.readAt_eq_ld, harg3.read_unread, View.ld_unit_zero hz2]
  have e4 : View.readAt (Elt F) arg4.view (Rect.unit ![0, 0] S10000x16.size inb_S10000x16_S10000x16_0_0).toLoadRect (harg4.unread x3) = x3 := by
    rw [View.readAt_eq_ld, harg4.read_unread, View.ld_unit_zero hz2]
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    exact read_whole_store _ _ hz2 _ _ _
  isplitl [H5]
  · iexists _; isplitr
    swap; · iexact H5
    ipureintro
    exact read_whole_store _ _ hz2 _ _ _
  iexists _; isplitr
  swap; · iexact H6
  ipureintro
  rw [read_whole_store _ _ hz2]
  sl_unfold_words
  rw [View.readCov_unit_zero (S := S1x1) _ hz2]

set_option maxHeartbeats 1000000 in
/-- At a later point: the same, but the running total's buffer, holding `xo`, is not zeroed and ends at the block's sum
    added to `xo`. -/
theorem runB (c : Dev nD) (i : grid0.Coords) (arg1 : Memref sig .tc .vmem S80x10000 .f32) (harg1 : arg1.IsWhole) (arg2 : Memref sig .tc .vmem S80x10000 .f32) (harg2 : arg2.IsWhole) (arg3 : Memref sig .tc .vmem S80x16 .f32) (harg3 : arg3.IsWhole) (arg4 : Memref sig .tc .vmem S10000x16 .f32) (harg4 : arg4.IsWhole) (arg5 : Memref sig .tc .vmem S80x1 .f32) (harg5 : arg5.IsWhole) (arg6 : Memref sig .tc .vmem S80x1 .f32) (harg6 : arg6.IsWhole) (arg7 : Memref sig .tc .vmem S1x1 .f32) (harg7 : arg7.IsWhole) (hc0 : ¬cond0 i)
    (x0 x1 : Vec F S80x10000 .f32) (x2 : Vec F S80x16 .f32) (x3 : Vec F S10000x16 .f32) (xo : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ owns (c : Thread nD τ) arg7 fullShare xo
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k0_pay3 x0 x2 x3)
            ∗ owns (c : Thread nD τ) arg6 fullShare (k0_pay4 x1 x2 x3) ∗ owns (c : Thread nD τ) arg7 fullShare (k0_pay5 x0 xo)) -∗ K ⟨⟩))
      ⊢ wp frame (wpE (defs₀ (F := F)) Variants.none c none) E (cc0__kernel i arg1 harg1 arg2 harg2 arg3 harg3 arg4 harg4 arg5 harg5 arg6 harg6 arg7 harg7) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
  obtain rfl := harg1.eq_unread hf0; obtain rfl := harg2.eq_unread hf1; obtain rfl := harg3.eq_unread hf2; obtain rfl := harg4.eq_unread hf3
  obtain rfl := harg7.eq_unread hf6
  have e1 : View.readAt (Elt F) arg1.view (Rect.unit ![0, 0] S80x10000.size inb_S80x10000_S80x10000_0_0).toLoadRect (harg1.unread x0) = x0 := by
    rw [View.readAt_eq_ld, harg1.read_unread, View.ld_unit_zero hz2]
  have e2 : View.readAt (Elt F) arg2.view (Rect.unit ![0, 0] S80x10000.size inb_S80x10000_S80x10000_0_0).toLoadRect (harg2.unread x1) = x1 := by
    rw [View.readAt_eq_ld, harg2.read_unread, View.ld_unit_zero hz2]
  have e3 : View.readAt (Elt F) arg3.view (Rect.unit ![0, 0] S80x16.size inb_S80x16_S80x16_0_0).toLoadRect (harg3.unread x2) = x2 := by
    rw [View.readAt_eq_ld, harg3.read_unread, View.ld_unit_zero hz2]
  have e4 : View.readAt (Elt F) arg4.view (Rect.unit ![0, 0] S10000x16.size inb_S10000x16_S10000x16_0_0).toLoadRect (harg4.unread x3) = x3 := by
    rw [View.readAt_eq_ld, harg4.read_unread, View.ld_unit_zero hz2]
  have e7 : View.readAt (Elt F) arg7.view (Rect.unit ![0, 0] S1x1.size inb_S1x1_S1x1_0_0).toLoadRect (harg7.unread xo) = xo := by
    rw [View.readAt_eq_ld, harg7.read_unread, View.ld_unit_zero hz2]
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    exact read_whole_store _ _ hz2 _ _ _
  isplitl [H5]
  · iexists _; isplitr
    swap; · iexact H5
    ipureintro
    exact read_whole_store _ _ hz2 _ _ _
  iexists _; isplitr
  swap; · iexact H6
  ipureintro
  exact read_whole_store _ _ hz2 _ _ _

/-! ## What the pipeline hands the function -/

/-- Each input's current staging buffer holds its block at every point, fetched there or not: the function leaves the
    inputs' buffers as it found them, and an input not fetched has not moved. -/
theorem before0_0 (c : Dev nD) (t : Fin cfg0.N) (d) : (dats m c).before 0 t d = iblk m c 0 t :=
  ((dats m c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m c).before 1 t d = iblk m c 1 t :=
  ((dats m c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m c).before 2 t d = iblk m c 2 t :=
  ((dats m c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m c).before 3 t d = iblk m c 3 t :=
  ((dats m c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)

/-- After the first point the running total's buffer holds what the function left at the point before: it is written
    back after the last point only. -/
theorem before0_6_B (c : Dev nD) (t : Fin cfg0.N) (h0 : ¬t.val % 125 = 0) (d) :
    (dats m c).before 6 t d = accAt m c (t.val - 1) (Nat.lt_of_le_of_lt (Nat.sub_le _ _) t.isLt) := by
  have hN : t.val < 125 := lt_of_lt_of_eq t.isLt (show cfg0.N = 125 from N_0)
  rw [Dat.before_out_kept _ 6 rfl t (by omega) (Bool.eq_false_iff.mpr fun h => by have := (flush0_6 _).mp h; dsimp only at this; omega)
    (fun _ => rfl) (fun _ _ => rfl)]
  exact after0_6 m c _

/-- The running total at the first point, and at a later one over the point before. -/
theorem accAt_A (c : Dev nD) (t : Fin cfg0.N) (h0 : t.val % 125 = 0) :
    accAt m c t.val t.isLt = k0_pay5 (adjBlk m c t) (k0_pay1 (F := F)) := by
  have hN : t.val < 125 := lt_of_lt_of_eq t.isLt (show cfg0.N = 125 from N_0)
  obtain ⟨n, hn⟩ := t
  cases n with
  | zero => exact rfl
  | succ n => exact (by exfalso; dsimp only at h0 hN; omega)
theorem accAt_B (c : Dev nD) (t : Fin cfg0.N) (h0 : ¬t.val % 125 = 0) :
    accAt m c t.val t.isLt = k0_pay5 (adjBlk m c t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-! ## The body obligation, at a generic point -/

/-- Each window's current staging buffer at point `t`, as the pipeline passes it. -/
abbrev ms0 (t : Fin cfg0.N) : Memref sig .tc .vmem S80x10000 .f32 := win0_0.stage (cfg0.slots t 0)
abbrev ms1 (t : Fin cfg0.N) : Memref sig .tc .vmem S80x10000 .f32 := win0_1.stage (cfg0.slots t 1)
abbrev ms2 (t : Fin cfg0.N) : Memref sig .tc .vmem S80x16 .f32 := win0_2.stage (cfg0.slots t 2)
abbrev ms3 (t : Fin cfg0.N) : Memref sig .tc .vmem S10000x16 .f32 := win0_3.stage (cfg0.slots t 3)
abbrev ms4 (t : Fin cfg0.N) : Memref sig .tc .vmem S80x1 .f32 := win0_4.stage (cfg0.slots t 4)
abbrev ms5 (t : Fin cfg0.N) : Memref sig .tc .vmem S80x1 .f32 := win0_5.stage (cfg0.slots t 5)
abbrev ms6 (t : Fin cfg0.N) : Memref sig .tc .vmem S1x1 .f32 := win0_6.stage (cfg0.slots t 6)

/-- What the function is called with at point `t`, the windows one by one, -/
def bodyPre (c : Dev nD) (t : Fin cfg0.N) : sProp 𝕄 :=
  iprop((dats m c).Φ t.castSucc ∗ (dats m c).owesAt () t.castSucc
    ∗ (∃ d, owns (c : Thread nD τ) (ms0 t) fullShare ((dats m c).before 0 t d))
    ∗ (∃ d, owns (c : Thread nD τ) (ms1 t) fullShare ((dats m c).before 1 t d))
    ∗ (∃ d, owns (c : Thread nD τ) (ms2 t) fullShare ((dats m c).before 2 t d))
    ∗ (∃ d, owns (c : Thread nD τ) (ms3 t) fullShare ((dats m c).before 3 t d))
    ∗ (∃ d, owns (c : Thread nD τ) (ms4 t) fullShare ((dats m c).before 4 t d))
    ∗ (∃ d, owns (c : Thread nD τ) (ms5 t) fullShare ((dats m c).before 5 t d))
    ∗ (∃ d, owns (c : Thread nD τ) (ms6 t) fullShare ((dats m c).before 6 t d)))

/-- and what it returns. -/
def bodyPost (c : Dev nD) (t : Fin cfg0.N) : sProp 𝕄 :=
  iprop((dats m c).Φ t.succ ∗ (dats m c).owesAt () t.succ
    ∗ owns (c : Thread nD τ) (ms0 t) fullShare ((dats m c).after 0 t)
    ∗ owns (c : Thread nD τ) (ms1 t) fullShare ((dats m c).after 1 t)
    ∗ owns (c : Thread nD τ) (ms2 t) fullShare ((dats m c).after 2 t)
    ∗ owns (c : Thread nD τ) (ms3 t) fullShare ((dats m c).after 3 t)
    ∗ owns (c : Thread nD τ) (ms4 t) fullShare ((dats m c).after 4 t)
    ∗ owns (c : Thread nD τ) (ms5 t) fullShare ((dats m c).after 5 t)
    ∗ owns (c : Thread nD τ) (ms6 t) fullShare ((dats m c).after 6 t))

set_option maxHeartbeats 1000000 in
/-- The function at any point: the inputs' buffers hold their blocks; the point is the first or a later one; at a later
    one the running total's buffer holds what the point before left; so the case's run applies; the invariant passes
    through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m c).Φ t.succ = (dats m c).Φ t.castSucc from rfl,
    show (dats m c).owesAt () t.succ = (dats m c).owesAt () t.castSucc from rfl,
    after0_0, after0_1, after0_2, after0_3, after0_4, after0_5, after0_6]
  by_cases h0 : t.val % 125 = 0
  · rw [accAt_A m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (runA c (grid0.coords t) _ _ _ _ _ _ _ _ _ _ _ _ _ _ ((hcond0 t).mpr h0) (adjBlk m c t) (attBlk m c t) (outBlk m c t) (outAll m c t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [accAt_B m c t h0]
    simp only [before0_6_B m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (runB c (grid0.coords t) _ _ _ _ _ _ _ _ _ _ _ _ _ _ (fun h => h0 ((hcond0 t).mp h)) (adjBlk m c t) (attBlk m c t) (outBlk m c t) (outAll m c t)
      (accAt m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m c) (defs₀ (F := F)) Variants.none () Set.univ := fun t => by
  rw [bigSep_W0, bigSep_W0]
  exact sound_body m c t

end Cert.Kernel.Hand

end
-- ==== Proof.K.Launch.lean ====
/-
  The run of the whole program: the region, then the host operations that follow it.
-/
import proofs.«121518_j4621384810785_1_alg».proof.Proof.K.Body
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.Kernel.Hand

/-- The device's buffers as the region leaves them: the three result arrays at what the write-backs made of them
    (`Dat.arrAt` at the last point), every other buffer as launched. -/
def exitVal (c : Dev nD) : Valuation τ sig (Elt F) :=
  StableHlo.after
    [ StableHlo.nullary main_v0_0 ((dats m c).arrAt 4 cfg0.N),
      StableHlo.nullary main_v0_1 ((dats m c).arrAt 5 cfg0.N),
      StableHlo.nullary main_v0_2 ((dats m c).arrAt 6 cfg0.N) ]
    (fun b => m (c, b))

/-- The device's buffers at the end: the host operations after the region, run from `exitVal`. -/
def endVal (c : Dev nD) : Valuation τ sig (Elt F) :=
  StableHlo.after (hostOps1 ++ hostOps1_1 ++ hostOps1_2) (exitVal m c)

/-! ## The seven windows on six buffers -/

/-- The buffers behind the windows' arrays, one by one: six, the two windows on the N×16 matrix sharing one. -/
theorem arrimg_six {M : Type} [URA M] (Φ : Ref sig .tc → sProp M) :
    bigSep (Finset.univ.image (Pipeline.arrRef spec0)) Φ
      = iprop(Φ main_arg0 ∗ Φ main_arg1 ∗ Φ main_arg2 ∗ Φ main_v0_0 ∗ Φ main_v0_1 ∗ Φ main_v0_2) :=
  bigSep_eq_bigSepL_of_eq [main_arg0, main_arg1, main_arg2, main_v0_0, main_v0_1, main_v0_2] (by decide) (by decide) Φ

/-- The windows' arrays one by one, each whole at its share: the two windows on the N×16 matrix hold one half each. -/
theorem arrays_seven (c : Dev nD) (Fn : (w : Fin cfg0.W) → Buf (Elt F) ((cfg0.win w).arr.view.loc (c.tc : Thread nD τ))) :
    ((dats m c).arrays Fn : sProp 𝕄) = iprop(
        (((c.tc : Thread nD τ).loc main_arg0) ↦{fullShare} Fn 0)
      ∗ (((c.tc : Thread nD τ).loc main_arg1) ↦{fullShare} Fn 1)
      ∗ (((c.tc : Thread nD τ).loc main_arg2) ↦{fullShare.left} Fn 2)
      ∗ (((c.tc : Thread nD τ).loc main_arg2) ↦{fullShare.right} Fn 3)
      ∗ (((c.tc : Thread nD τ).loc main_v0_0) ↦{fullShare} Fn 4)
      ∗ (((c.tc : Thread nD τ).loc main_v0_1) ↦{fullShare} Fn 5)
      ∗ (((c.tc : Thread nD τ).loc main_v0_2) ↦{fullShare} Fn 6)) := by
  unfold Dat.arrays
  rw [bigSep_W0, (arr_whole0 0).set_eq_univ, (arr_whole0 1).set_eq_univ, (arr_whole0 2).set_eq_univ,
    (arr_whole0 4).set_eq_univ, (arr_whole0 5).set_eq_univ, (arr_whole0 6).set_eq_univ]
  rfl

/-- At the region's entry: the six buffers whole at the launch contents make the seven windows' arrays, the N×16
    matrix split in its two halves. -/
theorem entry_split (c : Dev nD) :
    (Pipeline.arrBufs spec0 c (fun b => m (c, b)) : sProp 𝕄) ⊢ (dats m c).arrays ((dats m c).arrAt · 0) := by
  unfold Pipeline.arrBufs
  rw [arrimg_six, arrays_seven]
  iintro ⟨H0, H1, H2, H3, H4, H5⟩
  ihave H2' := (pointsTo_share (PosShare.mem_left_op_right fullShare)).1 $$ H2
  icases H2' with ⟨H2l, H2r⟩
  isplitl [H0]; · iexact H0
  isplitl [H1]; · iexact H1
  isplitl [H2l]; · iexact H2l
  isplitl [H2r]; · iexact H2r
  isplitl [H3]; · iexact H3
  isplitl [H4]; · iexact H4
  iexact H5

/-- Every operation after the region touches unscoped buffers of the core only. -/
theorem host_ops_sub_uc : ∀ op ∈ (hostOps1 ++ hostOps1_1 ++ hostOps1_2 : List (HloOp τ sig (Elt F))),
    op.bufs ⊆ Pipeline.ucRefs τ sig := by
  intro op hop
  rcases List.mem_append.mp hop with hop | hop
  · rcases List.mem_append.mp hop with hop | hop
    · exact Pipeline.sub_ucRefs op ((List.forall_iff_forall_mem.mp hostOps1_sub) op hop)
    · exact Pipeline.sub_ucRefs op ((List.forall_iff_forall_mem.mp hostOps1_1_sub) op hop)
  · exact Pipeline.sub_ucRefs op ((List.forall_iff_forall_mem.mp hostOps1_2_sub) op hop)

/-- Every operation after the region writes one buffer, its own result, which is none of the region's seven arrays,
    and allocates nothing. -/
theorem host_ops_writes : ∀ op ∈ (hostOps1 ++ hostOps1_1 ++ hostOps1_2 : List (HloOp τ sig (Elt F))),
    (∃ y : Ref sig .tc, op.writes = {Proc.devRef .tc y} ∧ ∀ w, Pipeline.arrRef spec0 w ≠ y) ∧ op.fresh = ∅ := by
  intro op hop
  simp only [hostOps1, hostOps1_1, hostOps1_2, List.cons_append, List.nil_append, List.mem_cons, List.mem_nil_iff,
    or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals exact ⟨⟨_, rfl, by decide⟩, rfl⟩

theorem host_ops_facts : ∀ op ∈ (hostOps1 ++ hostOps1_1 ++ hostOps1_2 : List (HloOp τ sig (Elt F))),
    (∃ y : Ref sig .tc, op.writes = {Proc.devRef .tc y} ∧ ∀ w, Pipeline.arrRef spec0 w ≠ y)
    ∧ op.fresh = ∅ ∧ op.bufs ⊆ Pipeline.ucRefs τ sig :=
  fun op hop => ⟨(host_ops_writes op hop).1, (host_ops_writes op hop).2, host_ops_sub_uc op hop⟩

/-- A buffer that is none of the three result arrays leaves the region as it was launched. -/
theorem exitVal_other (c : Dev nD) (b : Ref sig .tc) (h0 : b ≠ main_v0_0) (h1 : b ≠ main_v0_1) (h2 : b ≠ main_v0_2) :
    exitVal m c (Proc.devRef .tc b) = m (c, Proc.devRef .tc b) := by
  unfold exitVal
  rw [StableHlo.after_cons, StableHlo.after_cons, StableHlo.after_cons, StableHlo.after_nil,
    StableHlo.nullary_result_ne _ _ _ _ h2, StableHlo.nullary_result_ne _ _ _ _ h1, StableHlo.nullary_result_ne _ _ _ _ h0]

/-- Each window's array leaves the region at what the write-backs made of it: an input as launched, a result at
    its contents after the last point. -/
theorem exitVal_arr (c : Dev nD) (w : Fin cfg0.W) :
    exitVal m c (Proc.devRef .tc (Pipeline.arrRef spec0 w)) = (dats m c).arrAt w cfg0.N := by
  match w with
  | ⟨0, _⟩ =>
    show exitVal m c (Proc.devRef .tc main_arg0) = (dats m c).arrAt 0 cfg0.N
    rw [(dats m c).arrAt_in 0 rfl cfg0.N]
    exact exitVal_other m c main_arg0 (by decide) (by decide) (by decide)
  | ⟨1, _⟩ =>
    show exitVal m c (Proc.devRef .tc main_arg1) = (dats m c).arrAt 1 cfg0.N
    rw [(dats m c).arrAt_in 1 rfl cfg0.N]
    exact exitVal_other m c main_arg1 (by decide) (by decide) (by decide)
  | ⟨2, _⟩ =>
    show exitVal m c (Proc.devRef .tc main_arg2) = (dats m c).arrAt 2 cfg0.N
    rw [(dats m c).arrAt_in 2 rfl cfg0.N]
    exact exitVal_other m c main_arg2 (by decide) (by decide) (by decide)
  | ⟨3, _⟩ =>
    show exitVal m c (Proc.devRef .tc main_arg2) = (dats m c).arrAt 3 cfg0.N
    rw [(dats m c).arrAt_in 3 rfl cfg0.N]
    exact exitVal_other m c main_arg2 (by decide) (by decide) (by decide)
  | ⟨4, _⟩ =>
    show exitVal m c (Proc.devRef .tc main_v0_0) = (dats m c).arrAt 4 cfg0.N
    unfold exitVal
    rw [StableHlo.after_cons, StableHlo.after_cons, StableHlo.after_cons, StableHlo.after_nil,
      StableHlo.nullary_result_ne _ _ _ _ (by decide), StableHlo.nullary_result_ne _ _ _ _ (by decide), StableHlo.nullary_result]
  | ⟨5, _⟩ =>
    show exitVal m c (Proc.devRef .tc main_v0_1) = (dats m c).arrAt 5 cfg0.N
    unfold exitVal
    rw [StableHlo.after_cons, StableHlo.after_cons, StableHlo.after_cons, StableHlo.after_nil,
      StableHlo.nullary_result_ne _ _ _ _ (by decide), StableHlo.nullary_result]
  | ⟨6, _⟩ =>
    show exitVal m c (Proc.devRef .tc main_v0_2) = (dats m c).arrAt 6 cfg0.N
    unfold exitVal
    rw [StableHlo.after_cons, StableHlo.after_cons, StableHlo.after_cons, StableHlo.after_nil, StableHlo.nullary_result]

/-- A buffer that is no window's array leaves the region as it was launched. -/
theorem exitVal_rest (c : Dev nD) (b : Ref sig .tc) (hb : b ∈ Pipeline.restRefs sig spec0) :
    exitVal m c (Proc.devRef .tc b) = m (c, Proc.devRef .tc b) := by
  have hn : ∀ w : Fin cfg0.W, b ≠ Pipeline.arrRef spec0 w := fun w e =>
    (Finset.mem_sdiff.mp hb).2 (Finset.mem_image.mpr ⟨w, Finset.mem_univ w, e.symm⟩)
  exact exitVal_other m c b (hn 4) (hn 5) (hn 6)

/-! ## The lines after the region: the unscoped buffers, each at a share of its own -/

/-- The share the lines after the region hold each buffer at: the N×16 matrix at one half (the other half stays with
    the window that read it whole), every other buffer whole. -/
def tailShare : DevRef τ sig → PosShare TreeShare := fun b =>
  if b = Proc.devRef .tc main_arg2 then fullShare.left else fullShare

theorem tailShare_arg2 : tailShare (Proc.devRef .tc main_arg2) = fullShare.left := if_pos rfl

theorem tailShare_of_ne {r : Ref sig .tc} (h : r ≠ main_arg2) : tailShare (Proc.devRef .tc r) = fullShare :=
  if_neg (StableHlo.devRef_ne_of_ne h)

/-- The unscoped buffers, each held at its share, are the buffers behind the windows' arrays and the bypassing ones. -/
theorem heldAt_ucRefs (c : Dev nD) (q : DevRef τ sig → PosShare TreeShare) (W : Valuation τ sig (Elt F)) :
    (StableHlo.heldAt (c.tc : Thread nD τ) (Pipeline.ucRefs τ sig) q W : sProp 𝕄)
      = iprop((bigSep (Finset.univ.image (Pipeline.arrRef spec0)) fun b : Ref sig .tc =>
                (((c.tc : Thread nD τ).loc b) ↦{q (Proc.devRef .tc b)} W (Proc.devRef .tc b) : sProp 𝕄))
          ∗ bigSep (Pipeline.restRefs sig spec0) fun b : Ref sig .tc =>
                (((c.tc : Thread nD τ).loc b) ↦{q (Proc.devRef .tc b)} W (Proc.devRef .tc b) : sProp 𝕄)) := by
  classical
  have hA : Finset.univ.image (Pipeline.arrRef spec0) ⊆ Finset.univ.filter fun b : Ref sig .tc => ¬ b.isScoped := fun b hb => by
    obtain ⟨w, -, rfl⟩ := Finset.mem_image.mp hb
    exact Finset.mem_filter.mpr ⟨Finset.mem_univ _, by simp [winFacts₀0.arr_unscoped w]⟩
  unfold StableHlo.heldAt Pipeline.ucRefs StableHlo.tcRefs
  rw [Finset.filter_map, bigSep_map]
  show bigSep (Finset.univ.filter fun b : Ref sig .tc => ¬ b.isScoped) (fun b : Ref sig .tc =>
      (((c.tc : Thread nD τ).loc b) ↦{q (Proc.devRef .tc b)} W (Proc.devRef .tc b) : sProp 𝕄)) = _
  rw [bigSep_sdiff_split hA]
  rfl

/-- Straight lines of host operations run one after the other over buffers held at shares that are full for every
    buffer a line writes: the continuation is reached holding the set at the contents after all of them. -/
theorem wp_seqsAt_then (c : Dev nD) (S : Finset (DevRef τ sig)) (q : DevRef τ sig → PosShare TreeShare)
    (rest : List (Prog (TpuEff nD τ sig (Elt F) (Pipeline.Sig Λ₀ (Fin 1) fun p => (pcfgs (F := F) p).Adm) .tc) PUnit))
    {K : PUnit → sProp 𝕄} :
    ∀ (opss : List (List (HloOp τ sig (Elt F)))) (_ : ∀ ops ∈ opss, ∀ op ∈ ops, op.bufs ⊆ S)
      (_ : ∀ ops ∈ opss, ∀ op ∈ ops, ∀ b ∈ op.writes, q b = fullShare)
      (_ : ∀ ops ∈ opss, ∀ op ∈ ops, op.fresh = ∅)
      (W : Valuation τ sig (Elt F)),
    iprop(boundary (c.tc : Thread nD τ) ∗ (StableHlo.heldAt (c.tc : Thread nD τ) S q W : sProp 𝕄))
      ⊢ iprop(((boundary (c.tc : Thread nD τ) ∗ (StableHlo.heldAt (c.tc : Thread nD τ) S q (StableHlo.after opss.flatten W) : sProp 𝕄))
                -∗ wp frame (wpE (Pipeline.defs (pcfgs (F := F)) defs₀) (Variants.lift Variants.none) (c.tc : Thread nD τ) none) Set.univ
                    (Pipeline.chain rest) K)
        -∗ wp frame (wpE (Pipeline.defs (pcfgs (F := F)) defs₀) (Variants.lift Variants.none) (c.tc : Thread nD τ) none) Set.univ
            (Pipeline.chain (opss.map StableHlo.seq ++ rest)) K)
  | [], _, _, _, W => by
    rw [List.map_nil, List.nil_append, List.flatten_nil, StableHlo.after_nil]
    iintro H Hk; iapply Hk; iexact H
  | ops :: opss, hS, hq, hf, W => by
    rw [List.map_cons, List.cons_append, Pipeline.chain_cons, List.flatten_cons, StableHlo.after_append]
    iintro H Hk
    iapply (StableHlo.wp_seqAt (Variants.lift Variants.none) none Set.univ c S q _ ops (hS ops List.mem_cons_self) (hq ops List.mem_cons_self)
      (hf ops List.mem_cons_self) W) $$ H
    iintro H
    iapply (wp_seqsAt_then c S q rest opss (fun o ho => hS o (List.mem_cons_of_mem _ ho)) (fun o ho => hq o (List.mem_cons_of_mem _ ho))
      (fun o ho => hf o (List.mem_cons_of_mem _ ho)) (StableHlo.after ops W)) $$ H
    iexact Hk

/-- The unscoped buffers held at `tailShare`, with the other half of the N×16 matrix beside them, are the seven
    windows' arrays and the bypassing buffers, at any contents. -/
theorem tail_split (c : Dev nD) (W : Valuation τ sig (Elt F))
    (Fn : (w : Fin cfg0.W) → Buf (Elt F) ((cfg0.win w).arr.view.loc (c.tc : Thread nD τ)))
    (hF : ∀ w, W (Proc.devRef .tc (Pipeline.arrRef spec0 w)) = Fn w) :
    iprop((StableHlo.heldAt (c.tc : Thread nD τ) (Pipeline.ucRefs τ sig) tailShare W : sProp 𝕄)
        ∗ (((c.tc : Thread nD τ).loc main_arg2) ↦{fullShare.right} Fn 3))
      ⊣⊢ iprop(((dats m c).arrays Fn : sProp 𝕄)
        ∗ Pipeline.unscopedRest spec0 c (fun b => W (Proc.devRef .tc b))) := by
  obtain rfl : (fun w => W (Proc.devRef .tc (Pipeline.arrRef spec0 w))) = Fn := funext hF
  have hrest : (bigSep (Pipeline.restRefs sig spec0) fun b : Ref sig .tc =>
        (((c.tc : Thread nD τ).loc b) ↦{tailShare (Proc.devRef .tc b)} W (Proc.devRef .tc b) : sProp 𝕄))
      = Pipeline.unscopedRest spec0 c (fun b => W (Proc.devRef .tc b)) := by
    unfold Pipeline.unscopedRest
    exact bigSep_congr fun b hb => by
      rw [tailShare_of_ne fun e => (Finset.mem_sdiff.mp hb).2 (Finset.mem_image.mpr ⟨2, Finset.mem_univ _, e.symm⟩)]
  rw [heldAt_ucRefs, hrest, arrimg_six, arrays_seven,
    tailShare_of_ne (r := main_arg0) (by decide), tailShare_of_ne (r := main_arg1) (by decide), tailShare_arg2,
    tailShare_of_ne (r := main_v0_0) (by decide), tailShare_of_ne (r := main_v0_1) (by decide), tailShare_of_ne (r := main_v0_2) (by decide)]
  constructor
  · iintro ⟨⟨⟨H0, H1, H2, H3, H4, H5⟩, HR⟩, H2r⟩
    isplitr [HR]
    · isplitl [H0]; · iexact H0
      isplitl [H1]; · iexact H1
      isplitl [H2]; · iexact H2
      isplitl [H2r]; · iexact H2r
      isplitl [H3]; · iexact H3
      isplitl [H4]; · iexact H4
      iexact H5
    · iexact HR
  · iintro ⟨⟨H0, H1, H2, H2r, H3, H4, H5⟩, HR⟩
    isplitr [H2r]
    · isplitr [HR]
      · isplitl [H0]; · iexact H0
        isplitl [H1]; · iexact H1
        isplitl [H2]; · iexact H2
        isplitl [H3]; · iexact H3
        isplitl [H4]; · iexact H4
        iexact H5
      · iexact HR
    · iexact H2r

/-- THE LINES AFTER THE REGION. From the region's exit — the boundary, the windows' arrays at their final contents, the
    bypassing buffers as launched — the thirty host operations run, reading the N×16 matrix at one half share and
    writing no array, and hand back the arrays unchanged and the bypassing buffers at what the lines computed. -/
theorem tail_run (c : Dev nD) (Q' : PUnit → sProp 𝕄) (n : ℕ) (hn : n = cfg0.N) :
    iprop((iprop(((dats m c).arrays ((dats m c).arrAt · n) : sProp 𝕄)
              ∗ Pipeline.unscopedRest spec0 c (fun b => endVal m c (Proc.devRef .tc b))) -∗ Q' ⟨⟩)
        ∗ boundary (c.tc : Thread nD τ) ∗ ((dats m c).arrays ((dats m c).arrAt · n) : sProp 𝕄)
        ∗ Pipeline.unscopedRest spec0 c (V m c))
      ⊢ wp frame (wpE (Pipeline.defs (pcfgs (F := F)) defs₀) (Variants.lift Variants.none) (c.tc : Thread nD τ) none) Set.univ
          (Pipeline.chain ([hostOps1, hostOps1_1, hostOps1_2].map StableHlo.seq)) Q' := by
  classical
  subst hn
  have hmem : ∀ ops ∈ ([hostOps1, hostOps1_1, hostOps1_2] : List (List (HloOp τ sig (Elt F)))), ∀ op ∈ ops,
      op ∈ (hostOps1 ++ hostOps1_1 ++ hostOps1_2 : List (HloOp τ sig (Elt F))) := by
    intro ops hops op hop
    simp only [List.mem_cons, List.mem_nil_iff, or_false] at hops
    rcases hops with rfl | rfl | rfl
    · exact List.mem_append_left _ (List.mem_append_left _ hop)
    · exact List.mem_append_left _ (List.mem_append_right _ hop)
    · exact List.mem_append_right _ hop
  have hflat : ([hostOps1, hostOps1_1, hostOps1_2] : List (List (HloOp τ sig (Elt F)))).flatten = hostOps1 ++ hostOps1_1 ++ hostOps1_2 := by
    simp only [List.flatten_cons, List.flatten_nil, List.append_nil, List.append_assoc]
  have hS : ∀ ops ∈ ([hostOps1, hostOps1_1, hostOps1_2] : List (List (HloOp τ sig (Elt F)))), ∀ op ∈ ops,
      op.bufs ⊆ Pipeline.ucRefs τ sig := fun ops ho op h => (host_ops_facts op (hmem ops ho op h)).2.2
  have hf : ∀ ops ∈ ([hostOps1, hostOps1_1, hostOps1_2] : List (List (HloOp τ sig (Elt F)))), ∀ op ∈ ops,
      op.fresh = ∅ := fun ops ho op h => (host_ops_facts op (hmem ops ho op h)).2.1
  have hq : ∀ ops ∈ ([hostOps1, hostOps1_1, hostOps1_2] : List (List (HloOp τ sig (Elt F)))), ∀ op ∈ ops,
      ∀ b ∈ op.writes, tailShare b = fullShare := fun ops ho op h b hb => by
    obtain ⟨⟨y, hy, hne⟩, -, -⟩ := host_ops_facts op (hmem ops ho op h)
    rw [hy, Finset.mem_singleton] at hb
    subst hb
    exact tailShare_of_ne fun e => hne 2 e.symm
  have hkeepW : ∀ w, endVal m c (Proc.devRef .tc (Pipeline.arrRef spec0 w)) = (dats m c).arrAt w cfg0.N := fun w => by
    unfold endVal
    rw [StableHlo.after_of_forall_not_mem _ _ fun op hop hw => ?_, exitVal_arr]
    obtain ⟨⟨y, hy, hne⟩, -, -⟩ := host_ops_facts op hop
    rw [hy, Finset.mem_singleton] at hw
    exact hne w (Proc.devRef_injective _ hw)
  have hZ : (Pipeline.unscopedRest spec0 c (V m c) : sProp 𝕄)
      = Pipeline.unscopedRest spec0 c (fun b => exitVal m c (Proc.devRef .tc b)) := by
    unfold Pipeline.unscopedRest
    exact bigSep_congr fun b hb => congrArg (fun f => (((c.tc : Thread nD τ).loc b) ↦{fullShare} f : sProp 𝕄)) (exitVal_rest m c b hb).symm
  rw [hZ, ← List.append_nil (([hostOps1, hostOps1_1, hostOps1_2] : List (List (HloOp τ sig (Elt F)))).map StableHlo.seq)]
  iintro ⟨Hk, Hb, Ha, HZ⟩
  ihave H := (tail_split m c (exitVal m c) ((dats m c).arrAt · cfg0.N) (exitVal_arr m c)).2 $$ [Ha HZ]
  · isplitl [Ha]; · iexact Ha
    iexact HZ
  icases H with ⟨Hh, H3⟩
  iapply (wp_seqsAt_then c (Pipeline.ucRefs τ sig) tailShare [] [hostOps1, hostOps1_1, hostOps1_2] hS hq hf (exitVal m c)) $$ [Hb Hh]
  · isplitl [Hb]; · iexact Hb
    iexact Hh
  iintro ⟨Hb, Hh⟩
  rw [Pipeline.chain_nil, wp_pure, hflat]
  imodintro
  iapply Hk
  iapply (tail_split m c (endVal m c) ((dats m c).arrAt · cfg0.N) hkeepW).1
  isplitl [Hh]; · iexact Hh
  iexact H3

/-- The lines after the region, as the launch asks for them. -/
theorem tail_run' (c : Dev nD) (Q' : PUnit → sProp 𝕄) :
    iprop((iprop(((dats m c).arrays ((dats m c).arrAt · (Pipeline.pin (pcfgs (F := F)) (fun p => (cfgs p).toPCfg_adm) 0).N) : sProp 𝕄)
              ∗ Pipeline.unscopedRest spec0 c (fun b => endVal m c (Proc.devRef .tc b))) -∗ Q' ⟨⟩)
        ∗ boundary (c.tc : Thread nD τ)
        ∗ ((dats m c).arrays ((dats m c).arrAt · (Pipeline.pin (pcfgs (F := F)) (fun p => (cfgs p).toPCfg_adm) 0).N) : sProp 𝕄)
        ∗ Pipeline.unscopedRest spec0 c (V m c))
      ⊢ wp frame (wpE (Pipeline.defs (pcfgs (F := F)) defs₀) (Variants.lift Variants.none) (c.tc : Thread nD τ) none) Set.univ
          (Pipeline.chain ([hostOps1, hostOps1_1, hostOps1_2].map StableHlo.seq)) Q' :=
  tail_run m c Q' _ rfl

/-- @main is the region continued by the three stretches of host operations. -/
theorem main_around : Pipeline.HMainK (Ix := Unit) (Name := ℕ) (U := UR sig nD τ) (Lvl := ℕ) cfgs 0 defs₀ Variants.none m (main (F := F))
    (fun c b => m (c, b)) (fun _ => Pipeline.chain ([hostOps1, hostOps1_1, hostOps1_2].map StableHlo.seq)) :=
  Pipeline.hmain_around cfgs 0 defs₀ Variants.none m main [] [hostOps1, hostOps1_1, hostOps1_2] trivial trivial
    (fun c => (main_chain c).trans rfl)

/-- THE RUN. From any memory with zero counters every weakly fair execution of @main terminates, no fault; at the
    end every array of the region holds what the library computes from the proof data, and every other unscoped buffer
    what the host operations after the region make of the region's exit contents. -/
theorem run_main : θ_run defs (onTc (τ := τ) (main (F := F))) ⟨m, fun _ => 0, ρ⟩ (fun r => ∀ c : Dev nD,
    (∀ w, r.2.mem (((cfg0).spec w).arr.view.loc (c.tc : Thread nD τ)) = (dats m c).arrAt w cfg0.N)
    ∧ ∀ b ∈ Pipeline.restRefs sig spec0, r.2.mem ((c.tc : Thread nD τ).loc b) = endVal m c (Proc.devRef .tc b)) := by
  classical
  unfold defs
  exact Pipeline.θ_run_region_pf_tail (pcfgs (F := F)) (fun p => (cfgs p).toPCfg_adm) (fun _ c => dats m c) () cellOf_inj 0 winFacts₀0
    (Pipeline.OwnSemFacts.none spec0) (Pipeline.PreFacts.none _) emb₁ defs₀ Variants.none m ρ main
    (fun _ => Pipeline.chain ([hostOps1, hostOps1_1, hostOps1_2].map StableHlo.seq))
    (fun c => (body_obligation m c).loose)
    block_pos0 arr_whole0 stage_whole0 (fun _ _ => rfl)
    (G := fun _ => iprop(emp))
    (u₀ := initOf (Pipeline.cells (Pipeline.pin (pcfgs (F := F)) fun p => (cfgs p).toPCfg_adm) cellOf_inj)
      (Pipeline.launchToks (Pipeline.pin (pcfgs (F := F)) fun p => (cfgs p).toPCfg_adm) cellOf_inj))
    (hu₀ := by
      iintro Hu; imodintro
      isplitl [Hu]; · iapply (show (ownU _ : sProp 𝕄) ⊢ BI.own (emb₁ _) from .rfl); iexact Hu
      iapply (show (BI.emp : sProp 𝕄) ⊢ bigSep Finset.univ (fun _ : Dev nD => (BI.emp : sProp 𝕄)) from by rw [BI.bigSep_emp_const])
      iempintro)
    (V := fun c b => m (c, b))
    (hmain := main_around m)
    (hsplit := fun c => entry_split m c)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (fun b => endVal m c (Proc.devRef .tc b)))
    (hX := fun c => by
      rw [Pipeline.unscopedRestP_none]
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => tail_run' m c Q')
    (QY := fun c s => ∀ b ∈ Pipeline.restRefs sig spec0, s.mem ((c.tc : Thread nD τ).loc b) = endVal m c (Proc.devRef .tc b))
    (hY := fun c s' => by
      iintro ⟨-, HU, HSI⟩
      unfold Pipeline.unscopedRest
      imodintro
      iapply (pointsTo_read_all (Pipeline.restRefs sig spec0) (fun b => (c.tc : Thread nD τ).loc b) (fun b => endVal m c (Proc.devRef .tc b)) s')
      isplitl [HU] <;> iassumption)
    (hQ := fun s h c => ⟨(h c).1, (h c).2.2⟩)

end Cert.Kernel.Hand

end
-- ==== Proof.K.Frame.lean ====
/-
  The frame of the program, at any float instance: it runs to the end, faults nowhere, and its three argument arrays
  end as they were launched — each is an input window's array, which no write-back touches.
-/
import proofs.«121518_j4621384810785_1_alg».proof.Proof.K.Launch

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.Kernel.Hand

/-- The frame claim's statement, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).1 0).trans (((dats m c).arrAt_in 0 rfl _).trans (A_eq m c 0)),
     ((h c).1 1).trans (((dats m c).arrAt_in 1 rfl _).trans (A_eq m c 1)),
     ((h c).1 2).trans (((dats m c).arrAt_in 2 rfl _).trans (A_eq m c 2))⟩) (run_main m ρ)

end Cert.Kernel.Hand

end
-- ==== Proof.KI.Data.lean ====
/-
  The proof data of the one pipelined region, at any float instance.

  The region walks 125 points; point t handles rows 80t … 80t+79.  Its seven windows: the row blocks of the two
  N×N matrices (0, 1) and of the N×16 matrix (2), that matrix whole (3: the same array as window 2), the two
  per-row outputs (4, 5: each block is a function of the point's input blocks alone) and the 1×1 running total
  (6: reset at point 0, then at every point the block's sum is added to what the point before left).
-/
import proofs.«121518_j4621384810785_1_alg».proof.Proof.Gen.KernelIdeal.Launch
import proofs.«121518_j4621384810785_1_alg».proof.Proof.Gen.KernelIdeal.Skeleton
import proofs.«121518_j4621384810785_1_alg».proof.Proof.Gen.KernelIdeal.Points
import Idealize.ShloMosaic.Lib.Pipeline.FrameBody
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: as launched (nothing runs before the region). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input blocks at their literal types: rows 80t… of the first and second matrix and of the N×16 matrix, and that matrix whole. -/
abbrev adjBlk (c : Dev nD) (t : Fin cfg0.N) : Vec F S80x10000 .f32 := iblk m c 0 t
abbrev attBlk (c : Dev nD) (t : Fin cfg0.N) : Vec F S80x10000 .f32 := iblk m c 1 t
abbrev outBlk (c : Dev nD) (t : Fin cfg0.N) : Vec F S80x16 .f32 := iblk m c 2 t
abbrev outAll (c : Dev nD) (t : Fin cfg0.N) : Vec F S10000x16 .f32 := iblk m c 3 t

/-- The running total after point `n`: at point 0 the block's sum added to the zero the body has just stored, later
    the block's sum added to what the point before left. -/
def accAt (c : Dev nD) : (n : ℕ) → n < cfg0.N → Vec F S1x1 .f32
  | 0, hn => k0_pay5 (adjBlk m c ⟨0, hn⟩) (k0_pay1 (F := F))
  | n + 1, hn => k0_pay5 (adjBlk m c ⟨n + 1, hn⟩) (accAt c n (Nat.lt_of_succ_lt hn))

theorem accAt_zero (c : Dev nD) (hn : 0 < cfg0.N) : accAt m c 0 hn = k0_pay5 (adjBlk m c ⟨0, hn⟩) (k0_pay1 (F := F)) := rfl
theorem accAt_succ (c : Dev nD) (n : ℕ) (hn : n + 1 < cfg0.N) :
    accAt m c (n + 1) hn = k0_pay5 (adjBlk m c ⟨n + 1, hn⟩) (accAt m c n (Nat.lt_of_succ_lt hn)) := rfl

/-- The proof data on core `c`: the arrays as launched; after the body at point `t` each input's buffer at its block,
    the two per-row outputs at the body's stored values of the point's blocks, the running total at `accAt`; the two
    windows on the N×16 matrix hold one half of it each; the invariant is the scoped rest and the generator register;
    nothing owed. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (adjBlk m c t) (outBlk m c t) (outAll m c t)
    | ⟨5, _⟩ => k0_pay4 (attBlk m c t) (outBlk m c t) (outAll m c t)
    | ⟨6, _⟩ => accAt m c t.val t.isLt
  Φ _ := Pipeline.ΦA spec0 c
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
    | ⟨6, _⟩ => fullShare
  owed _ := 0

theorem A_eq (c : Dev nD) (w : Fin cfg0.W) : (dats m c).A w = V m c (Pipeline.arrRef spec0 w) := by
  dsimp only [dats]

theorem after0_0 (c : Dev nD) (t : Fin cfg0.N) : (dats m c).after 0 t = iblk m c 0 t := by dsimp only [dats]
theorem after0_1 (c : Dev nD) (t : Fin cfg0.N) : (dats m c).after 1 t = iblk m c 1 t := by dsimp only [dats]
theorem after0_2 (c : Dev nD) (t : Fin cfg0.N) : (dats m c).after 2 t = iblk m c 2 t := by dsimp only [dats]
theorem after0_3 (c : Dev nD) (t : Fin cfg0.N) : (dats m c).after 3 t = iblk m c 3 t := by dsimp only [dats]
theorem after0_4 (c : Dev nD) (t : Fin cfg0.N) :
    (dats m c).after 4 t = k0_pay3 (adjBlk m c t) (outBlk m c t) (outAll m c t) := by dsimp only [dats]
theorem after0_5 (c : Dev nD) (t : Fin cfg0.N) :
    (dats m c).after 5 t = k0_pay4 (attBlk m c t) (outBlk m c t) (outAll m c t) := by dsimp only [dats]
theorem after0_6 (c : Dev nD) (t : Fin cfg0.N) : (dats m c).after 6 t = accAt m c t.val t.isLt := by dsimp only [dats]

end Cert.KernelIdeal.Hand

end
-- ==== Proof.KI.Body.lean ====
/-
  The body obligation of the region: at every point the kernel function, run on the windows' current staging
  buffers holding what the pipeline put there, leaves what the proof data say.

  The function zeroes the 1×1 running total at the first point only, loads its four input blocks whole, stores the
  two per-row outputs whole, and adds the block's sum to the running total read back.  It is run once per case of
  that condition on any whole staging buffers; the pipeline's schedule says what each buffer holds when it is called.
-/
import proofs.«121518_j4621384810785_1_alg».proof.Proof.KI.Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal.Hand

/-! ## The branch condition -/

/-- The condition of the function's one branch, from the grid coordinates: the point is the first. -/
abbrev cond0 (i : grid0.Coords) : Prop := (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val % 125 = 0 :=
  (by decide +kernel : ∀ t : Fin grid0.N, cond0 (grid0.coords t) ↔ t.val % 125 = 0)

/-- The zero offsets of every access, as a constant function. -/
theorem hz2 : (![0, 0] : Fin 2 → Nat) = fun _ => 0 := funext fun a => by fin_cases a <;> rfl

/-! ## The function on any whole staging buffers, once per case -/

/-- A buffer whose last store went through its whole shape reads that store's value, whatever was stored before. -/
theorem read_whole_store {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩), View.canon_cons_unit_zero h]

set_option maxHeartbeats 1000000 in
/-- At the first point: the running total's buffer, at anything, is zeroed; the inputs are read whole and handed back as
    they were; the per-row outputs' buffers, at anything, end at the stored values of the blocks; the running total's
    ends at the block's sum added to the zero read back. -/
theorem runA (c : Dev nD) (i : grid0.Coords) (arg1 : Memref sig .tc .vmem S80x10000 .f32) (harg1 : arg1.IsWhole) (arg2 : Memref sig .tc .vmem S80x10000 .f32) (harg2 : arg2.IsWhole) (arg3 : Memref sig .tc .vmem S80x16 .f32) (harg3 : arg3.IsWhole) (arg4 : Memref sig .tc .vmem S10000x16 .f32) (harg4 : arg4.IsWhole) (arg5 : Memref sig .tc .vmem S80x1 .f32) (harg5 : arg5.IsWhole) (arg6 : Memref sig .tc .vmem S80x1 .f32) (harg6 : arg6.IsWhole) (arg7 : Memref sig .tc .vmem S1x1 .f32) (harg7 : arg7.IsWhole) (hc0 : cond0 i)
    (x0 x1 : Vec F S80x10000 .f32) (x2 : Vec F S80x16 .f32) (x3 : Vec F S10000x16 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k0_pay3 x0 x2 x3)
            ∗ owns (c : Thread nD τ) arg6 fullShare (k0_pay4 x1 x2 x3) ∗ owns (c : Thread nD τ) arg7 fullShare (k0_pay5 x0 (k0_pay1 (F := F)))) -∗ K ⟨⟩))
      ⊢ wp frame (wpE (defs₀ (F := F)) Variants.none c none) E (cc0__kernel i arg1 harg1 arg2 harg2 arg3 harg3 arg4 harg4 arg5 harg5 arg6 harg6 arg7 harg7) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg1.eq_unread hf0; obtain rfl := harg2.eq_unread hf1; obtain rfl := harg3.eq_unread hf2; obtain rfl := harg4.eq_unread hf3
  have e1 : View.readAt (Elt F) arg1.view (Rect.unit ![0, 0] S80x10000.size inb_S80x10000_S80x10000_0_0).toLoadRect (harg1.unread x0) = x0 := by
    rw [View.readAt_eq_ld, harg1.read_unread, View.ld_unit_zero hz2]
  have e2 : View.readAt (Elt F) arg2.view (Rect.unit ![0, 0] S80x10000.size inb_S80x10000_S80x10000_0_0).toLoadRect (harg2.unread x1) = x1 := by
    rw [View.readAt_eq_ld, harg2.read_unread, View.ld_unit_zero hz2]
  have e3 : View.readAt (Elt F) arg3.view (Rect.unit ![0, 0] S80x16.size inb_S80x16_S80x16_0_0).toLoadRect (harg3.unread x2) = x2 := by
    rw [View.readAt_eq_ld, harg3.read_unread, View.ld_unit_zero hz2]
  have e4 : View.readAt (Elt F) arg4.view (Rect.unit ![0, 0] S10000x16.size inb_S10000x16_S10000x16_0_0).toLoadRect (harg4.unread x3) = x3 := by
    rw [View.readAt_eq_ld, harg4.read_unread, View.ld_unit_zero hz2]
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    exact read_whole_store _ _ hz2 _ _ _
  isplitl [H5]
  · iexists _; isplitr
    swap; · iexact H5
    ipureintro
    exact read_whole_store _ _ hz2 _ _ _
  iexists _; isplitr
  swap; · iexact H6
  ipureintro
  rw [read_whole_store _ _ hz2]
  sl_unfold_words
  rw [View.readCov_unit_zero (S := S1x1) _ hz2]

set_option maxHeartbeats 1000000 in
/-- At a later point: the same, but the running total's buffer, holding `xo`, is not zeroed and ends at the block's sum
    added to `xo`. -/
theorem runB (c : Dev nD) (i : grid0.Coords) (arg1 : Memref sig .tc .vmem S80x10000 .f32) (harg1 : arg1.IsWhole) (arg2 : Memref sig .tc .vmem S80x10000 .f32) (harg2 : arg2.IsWhole) (arg3 : Memref sig .tc .vmem S80x16 .f32) (harg3 : arg3.IsWhole) (arg4 : Memref sig .tc .vmem S10000x16 .f32) (harg4 : arg4.IsWhole) (arg5 : Memref sig .tc .vmem S80x1 .f32) (harg5 : arg5.IsWhole) (arg6 : Memref sig .tc .vmem S80x1 .f32) (harg6 : arg6.IsWhole) (arg7 : Memref sig .tc .vmem S1x1 .f32) (harg7 : arg7.IsWhole) (hc0 : ¬cond0 i)
    (x0 x1 : Vec F S80x10000 .f32) (x2 : Vec F S80x16 .f32) (x3 : Vec F S10000x16 .f32) (xo : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ owns (c : Thread nD τ) arg7 fullShare xo
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k0_pay3 x0 x2 x3)
            ∗ owns (c : Thread nD τ) arg6 fullShare (k0_pay4 x1 x2 x3) ∗ owns (c : Thread nD τ) arg7 fullShare (k0_pay5 x0 xo)) -∗ K ⟨⟩))
      ⊢ wp frame (wpE (defs₀ (F := F)) Variants.none c none) E (cc0__kernel i arg1 harg1 arg2 harg2 arg3 harg3 arg4 harg4 arg5 harg5 arg6 harg6 arg7 harg7) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
  obtain rfl := harg1.eq_unread hf0; obtain rfl := harg2.eq_unread hf1; obtain rfl := harg3.eq_unread hf2; obtain rfl := harg4.eq_unread hf3
  obtain rfl := harg7.eq_unread hf6
  have e1 : View.readAt (Elt F) arg1.view (Rect.unit ![0, 0] S80x10000.size inb_S80x10000_S80x10000_0_0).toLoadRect (harg1.unread x0) = x0 := by
    rw [View.readAt_eq_ld, harg1.read_unread, View.ld_unit_zero hz2]
  have e2 : View.readAt (Elt F) arg2.view (Rect.unit ![0, 0] S80x10000.size inb_S80x10000_S80x10000_0_0).toLoadRect (harg2.unread x1) = x1 := by
    rw [View.readAt_eq_ld, harg2.read_unread, View.ld_unit_zero hz2]
  have e3 : View.readAt (Elt F) arg3.view (Rect.unit ![0, 0] S80x16.size inb_S80x16_S80x16_0_0).toLoadRect (harg3.unread x2) = x2 := by
    rw [View.readAt_eq_ld, harg3.read_unread, View.ld_unit_zero hz2]
  have e4 : View.readAt (Elt F) arg4.view (Rect.unit ![0, 0] S10000x16.size inb_S10000x16_S10000x16_0_0).toLoadRect (harg4.unread x3) = x3 := by
    rw [View.readAt_eq_ld, harg4.read_unread, View.ld_unit_zero hz2]
  have e7 : View.readAt (Elt F) arg7.view (Rect.unit ![0, 0] S1x1.size inb_S1x1_S1x1_0_0).toLoadRect (harg7.unread xo) = xo := by
    rw [View.readAt_eq_ld, harg7.read_unread, View.ld_unit_zero hz2]
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    exact read_whole_store _ _ hz2 _ _ _
  isplitl [H5]
  · iexists _; isplitr
    swap; · iexact H5
    ipureintro
    exact read_whole_store _ _ hz2 _ _ _
  iexists _; isplitr
  swap; · iexact H6
  ipureintro
  exact read_whole_store _ _ hz2 _ _ _

/-! ## What the pipeline hands the function -/

/-- Each input's current staging buffer holds its block at every point, fetched there or not: the function leaves the
    inputs' buffers as it found them, and an input not fetched has not moved. -/
theorem before0_0 (c : Dev nD) (t : Fin cfg0.N) (d) : (dats m c).before 0 t d = iblk m c 0 t :=
  ((dats m c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m c).before 1 t d = iblk m c 1 t :=
  ((dats m c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m c).before 2 t d = iblk m c 2 t :=
  ((dats m c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m c).before 3 t d = iblk m c 3 t :=
  ((dats m c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)

/-- After the first point the running total's buffer holds what the function left at the point before: it is written
    back after the last point only. -/
theorem before0_6_B (c : Dev nD) (t : Fin cfg0.N) (h0 : ¬t.val % 125 = 0) (d) :
    (dats m c).before 6 t d = accAt m c (t.val - 1) (Nat.lt_of_le_of_lt (Nat.sub_le _ _) t.isLt) := by
  have hN : t.val < 125 := lt_of_lt_of_eq t.isLt (show cfg0.N = 125 from N_0)
  rw [Dat.before_out_kept _ 6 rfl t (by omega) (Bool.eq_false_iff.mpr fun h => by have := (flush0_6 _).mp h; dsimp only at this; omega)
    (fun _ => rfl) (fun _ _ => rfl)]
  exact after0_6 m c _

/-- The running total at the first point, and at a later one over the point before. -/
theorem accAt_A (c : Dev nD) (t : Fin cfg0.N) (h0 : t.val % 125 = 0) :
    accAt m c t.val t.isLt = k0_pay5 (adjBlk m c t) (k0_pay1 (F := F)) := by
  have hN : t.val < 125 := lt_of_lt_of_eq t.isLt (show cfg0.N = 125 from N_0)
  obtain ⟨n, hn⟩ := t
  cases n with
  | zero => exact rfl
  | succ n => exact (by exfalso; dsimp only at h0 hN; omega)
theorem accAt_B (c : Dev nD) (t : Fin cfg0.N) (h0 : ¬t.val % 125 = 0) :
    accAt m c t.val t.isLt = k0_pay5 (adjBlk m c t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-! ## The body obligation, at a generic point -/

/-- Each window's current staging buffer at point `t`, as the pipeline passes it. -/
abbrev ms0 (t : Fin cfg0.N) : Memref sig .tc .vmem S80x10000 .f32 := win0_0.stage (cfg0.slots t 0)
abbrev ms1 (t : Fin cfg0.N) : Memref sig .tc .vmem S80x10000 .f32 := win0_1.stage (cfg0.slots t 1)
abbrev ms2 (t : Fin cfg0.N) : Memref sig .tc .vmem S80x16 .f32 := win0_2.stage (cfg0.slots t 2)
abbrev ms3 (t : Fin cfg0.N) : Memref sig .tc .vmem S10000x16 .f32 := win0_3.stage (cfg0.slots t 3)
abbrev ms4 (t : Fin cfg0.N) : Memref sig .tc .vmem S80x1 .f32 := win0_4.stage (cfg0.slots t 4)
abbrev ms5 (t : Fin cfg0.N) : Memref sig .tc .vmem S80x1 .f32 := win0_5.stage (cfg0.slots t 5)
abbrev ms6 (t : Fin cfg0.N) : Memref sig .tc .vmem S1x1 .f32 := win0_6.stage (cfg0.slots t 6)

/-- What the function is called with at point `t`, the windows one by one, -/
def bodyPre (c : Dev nD) (t : Fin cfg0.N) : sProp 𝕄 :=
  iprop((dats m c).Φ t.castSucc ∗ (dats m c).owesAt () t.castSucc
    ∗ (∃ d, owns (c : Thread nD τ) (ms0 t) fullShare ((dats m c).before 0 t d))
    ∗ (∃ d, owns (c : Thread nD τ) (ms1 t) fullShare ((dats m c).before 1 t d))
    ∗ (∃ d, owns (c : Thread nD τ) (ms2 t) fullShare ((dats m c).before 2 t d))
    ∗ (∃ d, owns (c : Thread nD τ) (ms3 t) fullShare ((dats m c).before 3 t d))
    ∗ (∃ d, owns (c : Thread nD τ) (ms4 t) fullShare ((dats m c).before 4 t d))
    ∗ (∃ d, owns (c : Thread nD τ) (ms5 t) fullShare ((dats m c).before 5 t d))
    ∗ (∃ d, owns (c : Thread nD τ) (ms6 t) fullShare ((dats m c).before 6 t d)))

/-- and what it returns. -/
def bodyPost (c : Dev nD) (t : Fin cfg0.N) : sProp 𝕄 :=
  iprop((dats m c).Φ t.succ ∗ (dats m c).owesAt () t.succ
    ∗ owns (c : Thread nD τ) (ms0 t) fullShare ((dats m c).after 0 t)
    ∗ owns (c : Thread nD τ) (ms1 t) fullShare ((dats m c).after 1 t)
    ∗ owns (c : Thread nD τ) (ms2 t) fullShare ((dats m c).after 2 t)
    ∗ owns (c : Thread nD τ) (ms3 t) fullShare ((dats m c).after 3 t)
    ∗ owns (c : Thread nD τ) (ms4 t) fullShare ((dats m c).after 4 t)
    ∗ owns (c : Thread nD τ) (ms5 t) fullShare ((dats m c).after 5 t)
    ∗ owns (c : Thread nD τ) (ms6 t) fullShare ((dats m c).after 6 t))

set_option maxHeartbeats 1000000 in
/-- The function at any point: the inputs' buffers hold their blocks; the point is the first or a later one; at a later
    one the running total's buffer holds what the point before left; so the case's run applies; the invariant passes
    through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m c).Φ t.succ = (dats m c).Φ t.castSucc from rfl,
    show (dats m c).owesAt () t.succ = (dats m c).owesAt () t.castSucc from rfl,
    after0_0, after0_1, after0_2, after0_3, after0_4, after0_5, after0_6]
  by_cases h0 : t.val % 125 = 0
  · rw [accAt_A m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (runA c (grid0.coords t) _ _ _ _ _ _ _ _ _ _ _ _ _ _ ((hcond0 t).mpr h0) (adjBlk m c t) (attBlk m c t) (outBlk m c t) (outAll m c t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [accAt_B m c t h0]
    simp only [before0_6_B m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (runB c (grid0.coords t) _ _ _ _ _ _ _ _ _ _ _ _ _ _ (fun h => h0 ((hcond0 t).mp h)) (adjBlk m c t) (attBlk m c t) (outBlk m c t) (outAll m c t)
      (accAt m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m c) (defs₀ (F := F)) Variants.none () Set.univ := fun t => by
  rw [bigSep_W0, bigSep_W0]
  exact sound_body m c t

end Cert.KernelIdeal.Hand

end
-- ==== Proof.KI.Launch.lean ====
/-
  The run of the whole program: the region, then the host operations that follow it.
-/
import proofs.«121518_j4621384810785_1_alg».proof.Proof.KI.Body
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal.Hand

/-- The device's buffers as the region leaves them: the three result arrays at what the write-backs made of them
    (`Dat.arrAt` at the last point), every other buffer as launched. -/
def exitVal (c : Dev nD) : Valuation τ sig (Elt F) :=
  StableHlo.after
    [ StableHlo.nullary main_v0_0 ((dats m c).arrAt 4 cfg0.N),
      StableHlo.nullary main_v0_1 ((dats m c).arrAt 5 cfg0.N),
      StableHlo.nullary main_v0_2 ((dats m c).arrAt 6 cfg0.N) ]
    (fun b => m (c, b))

/-- The device's buffers at the end: the host operations after the region, run from `exitVal`. -/
def endVal (c : Dev nD) : Valuation τ sig (Elt F) :=
  StableHlo.after (hostOps1 ++ hostOps1_1 ++ hostOps1_2) (exitVal m c)

/-! ## The seven windows on six buffers -/

/-- The buffers behind the windows' arrays, one by one: six, the two windows on the N×16 matrix sharing one. -/
theorem arrimg_six {M : Type} [URA M] (Φ : Ref sig .tc → sProp M) :
    bigSep (Finset.univ.image (Pipeline.arrRef spec0)) Φ
      = iprop(Φ main_arg0 ∗ Φ main_arg1 ∗ Φ main_arg2 ∗ Φ main_v0_0 ∗ Φ main_v0_1 ∗ Φ main_v0_2) :=
  bigSep_eq_bigSepL_of_eq [main_arg0, main_arg1, main_arg2, main_v0_0, main_v0_1, main_v0_2] (by decide) (by decide) Φ

/-- The windows' arrays one by one, each whole at its share: the two windows on the N×16 matrix hold one half each. -/
theorem arrays_seven (c : Dev nD) (Fn : (w : Fin cfg0.W) → Buf (Elt F) ((cfg0.win w).arr.view.loc (c.tc : Thread nD τ))) :
    ((dats m c).arrays Fn : sProp 𝕄) = iprop(
        (((c.tc : Thread nD τ).loc main_arg0) ↦{fullShare} Fn 0)
      ∗ (((c.tc : Thread nD τ).loc main_arg1) ↦{fullShare} Fn 1)
      ∗ (((c.tc : Thread nD τ).loc main_arg2) ↦{fullShare.left} Fn 2)
      ∗ (((c.tc : Thread nD τ).loc main_arg2) ↦{fullShare.right} Fn 3)
      ∗ (((c.tc : Thread nD τ).loc main_v0_0) ↦{fullShare} Fn 4)
      ∗ (((c.tc : Thread nD τ).loc main_v0_1) ↦{fullShare} Fn 5)
      ∗ (((c.tc : Thread nD τ).loc main_v0_2) ↦{fullShare} Fn 6)) := by
  unfold Dat.arrays
  rw [bigSep_W0, (arr_whole0 0).set_eq_univ, (arr_whole0 1).set_eq_univ, (arr_whole0 2).set_eq_univ,
    (arr_whole0 4).set_eq_univ, (arr_whole0 5).set_eq_univ, (arr_whole0 6).set_eq_univ]
  rfl

/-- At the region's entry: the six buffers whole at the launch contents make the seven windows' arrays, the N×16
    matrix split in its two halves. -/
theorem entry_split (c : Dev nD) :
    (Pipeline.arrBufs spec0 c (fun b => m (c, b)) : sProp 𝕄) ⊢ (dats m c).arrays ((dats m c).arrAt · 0) := by
  unfold Pipeline.arrBufs
  rw [arrimg_six, arrays_seven]
  iintro ⟨H0, H1, H2, H3, H4, H5⟩
  ihave H2' := (pointsTo_share (PosShare.mem_left_op_right fullShare)).1 $$ H2
  icases H2' with ⟨H2l, H2r⟩
  isplitl [H0]; · iexact H0
  isplitl [H1]; · iexact H1
  isplitl [H2l]; · iexact H2l
  isplitl [H2r]; · iexact H2r
  isplitl [H3]; · iexact H3
  isplitl [H4]; · iexact H4
  iexact H5

/-- Every operation after the region touches unscoped buffers of the core only. -/
theorem host_ops_sub_uc : ∀ op ∈ (hostOps1 ++ hostOps1_1 ++ hostOps1_2 : List (HloOp τ sig (Elt F))),
    op.bufs ⊆ Pipeline.ucRefs τ sig := by
  intro op hop
  rcases List.mem_append.mp hop with hop | hop
  · rcases List.mem_append.mp hop with hop | hop
    · exact Pipeline.sub_ucRefs op ((List.forall_iff_forall_mem.mp hostOps1_sub) op hop)
    · exact Pipeline.sub_ucRefs op ((List.forall_iff_forall_mem.mp hostOps1_1_sub) op hop)
  · exact Pipeline.sub_ucRefs op ((List.forall_iff_forall_mem.mp hostOps1_2_sub) op hop)

/-- Every operation after the region writes one buffer, its own result, which is none of the region's seven arrays,
    and allocates nothing. -/
theorem host_ops_writes : ∀ op ∈ (hostOps1 ++ hostOps1_1 ++ hostOps1_2 : List (HloOp τ sig (Elt F))),
    (∃ y : Ref sig .tc, op.writes = {Proc.devRef .tc y} ∧ ∀ w, Pipeline.arrRef spec0 w ≠ y) ∧ op.fresh = ∅ := by
  intro op hop
  simp only [hostOps1, hostOps1_1, hostOps1_2, List.cons_append, List.nil_append, List.mem_cons, List.mem_nil_iff,
    or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals exact ⟨⟨_, rfl, by decide⟩, rfl⟩

theorem host_ops_facts : ∀ op ∈ (hostOps1 ++ hostOps1_1 ++ hostOps1_2 : List (HloOp τ sig (Elt F))),
    (∃ y : Ref sig .tc, op.writes = {Proc.devRef .tc y} ∧ ∀ w, Pipeline.arrRef spec0 w ≠ y)
    ∧ op.fresh = ∅ ∧ op.bufs ⊆ Pipeline.ucRefs τ sig :=
  fun op hop => ⟨(host_ops_writes op hop).1, (host_ops_writes op hop).2, host_ops_sub_uc op hop⟩

/-- A buffer that is none of the three result arrays leaves the region as it was launched. -/
theorem exitVal_other (c : Dev nD) (b : Ref sig .tc) (h0 : b ≠ main_v0_0) (h1 : b ≠ main_v0_1) (h2 : b ≠ main_v0_2) :
    exitVal m c (Proc.devRef .tc b) = m (c, Proc.devRef .tc b) := by
  unfold exitVal
  rw [StableHlo.after_cons, StableHlo.after_cons, StableHlo.after_cons, StableHlo.after_nil,
    StableHlo.nullary_result_ne _ _ _ _ h2, StableHlo.nullary_result_ne _ _ _ _ h1, StableHlo.nullary_result_ne _ _ _ _ h0]

/-- Each window's array leaves the region at what the write-backs made of it: an input as launched, a result at
    its contents after the last point. -/
theorem exitVal_arr (c : Dev nD) (w : Fin cfg0.W) :
    exitVal m c (Proc.devRef .tc (Pipeline.arrRef spec0 w)) = (dats m c).arrAt w cfg0.N := by
  match w with
  | ⟨0, _⟩ =>
    show exitVal m c (Proc.devRef .tc main_arg0) = (dats m c).arrAt 0 cfg0.N
    rw [(dats m c).arrAt_in 0 rfl cfg0.N]
    exact exitVal_other m c main_arg0 (by decide) (by decide) (by decide)
  | ⟨1, _⟩ =>
    show exitVal m c (Proc.devRef .tc main_arg1) = (dats m c).arrAt 1 cfg0.N
    rw [(dats m c).arrAt_in 1 rfl cfg0.N]
    exact exitVal_other m c main_arg1 (by decide) (by decide) (by decide)
  | ⟨2, _⟩ =>
    show exitVal m c (Proc.devRef .tc main_arg2) = (dats m c).arrAt 2 cfg0.N
    rw [(dats m c).arrAt_in 2 rfl cfg0.N]
    exact exitVal_other m c main_arg2 (by decide) (by decide) (by decide)
  | ⟨3, _⟩ =>
    show exitVal m c (Proc.devRef .tc main_arg2) = (dats m c).arrAt 3 cfg0.N
    rw [(dats m c).arrAt_in 3 rfl cfg0.N]
    exact exitVal_other m c main_arg2 (by decide) (by decide) (by decide)
  | ⟨4, _⟩ =>
    show exitVal m c (Proc.devRef .tc main_v0_0) = (dats m c).arrAt 4 cfg0.N
    unfold exitVal
    rw [StableHlo.after_cons, StableHlo.after_cons, StableHlo.after_cons, StableHlo.after_nil,
      StableHlo.nullary_result_ne _ _ _ _ (by decide), StableHlo.nullary_result_ne _ _ _ _ (by decide), StableHlo.nullary_result]
  | ⟨5, _⟩ =>
    show exitVal m c (Proc.devRef .tc main_v0_1) = (dats m c).arrAt 5 cfg0.N
    unfold exitVal
    rw [StableHlo.after_cons, StableHlo.after_cons, StableHlo.after_cons, StableHlo.after_nil,
      StableHlo.nullary_result_ne _ _ _ _ (by decide), StableHlo.nullary_result]
  | ⟨6, _⟩ =>
    show exitVal m c (Proc.devRef .tc main_v0_2) = (dats m c).arrAt 6 cfg0.N
    unfold exitVal
    rw [StableHlo.after_cons, StableHlo.after_cons, StableHlo.after_cons, StableHlo.after_nil, StableHlo.nullary_result]

/-- A buffer that is no window's array leaves the region as it was launched. -/
theorem exitVal_rest (c : Dev nD) (b : Ref sig .tc) (hb : b ∈ Pipeline.restRefs sig spec0) :
    exitVal m c (Proc.devRef .tc b) = m (c, Proc.devRef .tc b) := by
  have hn : ∀ w : Fin cfg0.W, b ≠ Pipeline.arrRef spec0 w := fun w e =>
    (Finset.mem_sdiff.mp hb).2 (Finset.mem_image.mpr ⟨w, Finset.mem_univ w, e.symm⟩)
  exact exitVal_other m c b (hn 4) (hn 5) (hn 6)

/-! ## The lines after the region: the unscoped buffers, each at a share of its own -/

/-- The share the lines after the region hold each buffer at: the N×16 matrix at one half (the other half stays with
    the window that read it whole), every other buffer whole. -/
def tailShare : DevRef τ sig → PosShare TreeShare := fun b =>
  if b = Proc.devRef .tc main_arg2 then fullShare.left else fullShare

theorem tailShare_arg2 : tailShare (Proc.devRef .tc main_arg2) = fullShare.left := if_pos rfl

theorem tailShare_of_ne {r : Ref sig .tc} (h : r ≠ main_arg2) : tailShare (Proc.devRef .tc r) = fullShare :=
  if_neg (StableHlo.devRef_ne_of_ne h)

/-- The unscoped buffers, each held at its share, are the buffers behind the windows' arrays and the bypassing ones. -/
theorem heldAt_ucRefs (c : Dev nD) (q : DevRef τ sig → PosShare TreeShare) (W : Valuation τ sig (Elt F)) :
    (StableHlo.heldAt (c.tc : Thread nD τ) (Pipeline.ucRefs τ sig) q W : sProp 𝕄)
      = iprop((bigSep (Finset.univ.image (Pipeline.arrRef spec0)) fun b : Ref sig .tc =>
                (((c.tc : Thread nD τ).loc b) ↦{q (Proc.devRef .tc b)} W (Proc.devRef .tc b) : sProp 𝕄))
          ∗ bigSep (Pipeline.restRefs sig spec0) fun b : Ref sig .tc =>
                (((c.tc : Thread nD τ).loc b) ↦{q (Proc.devRef .tc b)} W (Proc.devRef .tc b) : sProp 𝕄)) := by
  classical
  have hA : Finset.univ.image (Pipeline.arrRef spec0) ⊆ Finset.univ.filter fun b : Ref sig .tc => ¬ b.isScoped := fun b hb => by
    obtain ⟨w, -, rfl⟩ := Finset.mem_image.mp hb
    exact Finset.mem_filter.mpr ⟨Finset.mem_univ _, by simp [winFacts₀0.arr_unscoped w]⟩
  unfold StableHlo.heldAt Pipeline.ucRefs StableHlo.tcRefs
  rw [Finset.filter_map, bigSep_map]
  show bigSep (Finset.univ.filter fun b : Ref sig .tc => ¬ b.isScoped) (fun b : Ref sig .tc =>
      (((c.tc : Thread nD τ).loc b) ↦{q (Proc.devRef .tc b)} W (Proc.devRef .tc b) : sProp 𝕄)) = _
  rw [bigSep_sdiff_split hA]
  rfl

/-- Straight lines of host operations run one after the other over buffers held at shares that are full for every
    buffer a line writes: the continuation is reached holding the set at the contents after all of them. -/
theorem wp_seqsAt_then (c : Dev nD) (S : Finset (DevRef τ sig)) (q : DevRef τ sig → PosShare TreeShare)
    (rest : List (Prog (TpuEff nD τ sig (Elt F) (Pipeline.Sig Λ₀ (Fin 1) fun p => (pcfgs (F := F) p).Adm) .tc) PUnit))
    {K : PUnit → sProp 𝕄} :
    ∀ (opss : List (List (HloOp τ sig (Elt F)))) (_ : ∀ ops ∈ opss, ∀ op ∈ ops, op.bufs ⊆ S)
      (_ : ∀ ops ∈ opss, ∀ op ∈ ops, ∀ b ∈ op.writes, q b = fullShare)
      (_ : ∀ ops ∈ opss, ∀ op ∈ ops, op.fresh = ∅)
      (W : Valuation τ sig (Elt F)),
    iprop(boundary (c.tc : Thread nD τ) ∗ (StableHlo.heldAt (c.tc : Thread nD τ) S q W : sProp 𝕄))
      ⊢ iprop(((boundary (c.tc : Thread nD τ) ∗ (StableHlo.heldAt (c.tc : Thread nD τ) S q (StableHlo.after opss.flatten W) : sProp 𝕄))
                -∗ wp frame (wpE (Pipeline.defs (pcfgs (F := F)) defs₀) (Variants.lift Variants.none) (c.tc : Thread nD τ) none) Set.univ
                    (Pipeline.chain rest) K)
        -∗ wp frame (wpE (Pipeline.defs (pcfgs (F := F)) defs₀) (Variants.lift Variants.none) (c.tc : Thread nD τ) none) Set.univ
            (Pipeline.chain (opss.map StableHlo.seq ++ rest)) K)
  | [], _, _, _, W => by
    rw [List.map_nil, List.nil_append, List.flatten_nil, StableHlo.after_nil]
    iintro H Hk; iapply Hk; iexact H
  | ops :: opss, hS, hq, hf, W => by
    rw [List.map_cons, List.cons_append, Pipeline.chain_cons, List.flatten_cons, StableHlo.after_append]
    iintro H Hk
    iapply (StableHlo.wp_seqAt (Variants.lift Variants.none) none Set.univ c S q _ ops (hS ops List.mem_cons_self) (hq ops List.mem_cons_self)
      (hf ops List.mem_cons_self) W) $$ H
    iintro H
    iapply (wp_seqsAt_then c S q rest opss (fun o ho => hS o (List.mem_cons_of_mem _ ho)) (fun o ho => hq o (List.mem_cons_of_mem _ ho))
      (fun o ho => hf o (List.mem_cons_of_mem _ ho)) (StableHlo.after ops W)) $$ H
    iexact Hk

/-- The unscoped buffers held at `tailShare`, with the other half of the N×16 matrix beside them, are the seven
    windows' arrays and the bypassing buffers, at any contents. -/
theorem tail_split (c : Dev nD) (W : Valuation τ sig (Elt F))
    (Fn : (w : Fin cfg0.W) → Buf (Elt F) ((cfg0.win w).arr.view.loc (c.tc : Thread nD τ)))
    (hF : ∀ w, W (Proc.devRef .tc (Pipeline.arrRef spec0 w)) = Fn w) :
    iprop((StableHlo.heldAt (c.tc : Thread nD τ) (Pipeline.ucRefs τ sig) tailShare W : sProp 𝕄)
        ∗ (((c.tc : Thread nD τ).loc main_arg2) ↦{fullShare.right} Fn 3))
      ⊣⊢ iprop(((dats m c).arrays Fn : sProp 𝕄)
        ∗ Pipeline.unscopedRest spec0 c (fun b => W (Proc.devRef .tc b))) := by
  obtain rfl : (fun w => W (Proc.devRef .tc (Pipeline.arrRef spec0 w))) = Fn := funext hF
  have hrest : (bigSep (Pipeline.restRefs sig spec0) fun b : Ref sig .tc =>
        (((c.tc : Thread nD τ).loc b) ↦{tailShare (Proc.devRef .tc b)} W (Proc.devRef .tc b) : sProp 𝕄))
      = Pipeline.unscopedRest spec0 c (fun b => W (Proc.devRef .tc b)) := by
    unfold Pipeline.unscopedRest
    exact bigSep_congr fun b hb => by
      rw [tailShare_of_ne fun e => (Finset.mem_sdiff.mp hb).2 (Finset.mem_image.mpr ⟨2, Finset.mem_univ _, e.symm⟩)]
  rw [heldAt_ucRefs, hrest, arrimg_six, arrays_seven,
    tailShare_of_ne (r := main_arg0) (by decide), tailShare_of_ne (r := main_arg1) (by decide), tailShare_arg2,
    tailShare_of_ne (r := main_v0_0) (by decide), tailShare_of_ne (r := main_v0_1) (by decide), tailShare_of_ne (r := main_v0_2) (by decide)]
  constructor
  · iintro ⟨⟨⟨H0, H1, H2, H3, H4, H5⟩, HR⟩, H2r⟩
    isplitr [HR]
    · isplitl [H0]; · iexact H0
      isplitl [H1]; · iexact H1
      isplitl [H2]; · iexact H2
      isplitl [H2r]; · iexact H2r
      isplitl [H3]; · iexact H3
      isplitl [H4]; · iexact H4
      iexact H5
    · iexact HR
  · iintro ⟨⟨H0, H1, H2, H2r, H3, H4, H5⟩, HR⟩
    isplitr [H2r]
    · isplitr [HR]
      · isplitl [H0]; · iexact H0
        isplitl [H1]; · iexact H1
        isplitl [H2]; · iexact H2
        isplitl [H3]; · iexact H3
        isplitl [H4]; · iexact H4
        iexact H5
      · iexact HR
    · iexact H2r

/-- THE LINES AFTER THE REGION. From the region's exit — the boundary, the windows' arrays at their final contents, the
    bypassing buffers as launched — the thirty host operations run, reading the N×16 matrix at one half share and
    writing no array, and hand back the arrays unchanged and the bypassing buffers at what the lines computed. -/
theorem tail_run (c : Dev nD) (Q' : PUnit → sProp 𝕄) (n : ℕ) (hn : n = cfg0.N) :
    iprop((iprop(((dats m c).arrays ((dats m c).arrAt · n) : sProp 𝕄)
              ∗ Pipeline.unscopedRest spec0 c (fun b => endVal m c (Proc.devRef .tc b))) -∗ Q' ⟨⟩)
        ∗ boundary (c.tc : Thread nD τ) ∗ ((dats m c).arrays ((dats m c).arrAt · n) : sProp 𝕄)
        ∗ Pipeline.unscopedRest spec0 c (V m c))
      ⊢ wp frame (wpE (Pipeline.defs (pcfgs (F := F)) defs₀) (Variants.lift Variants.none) (c.tc : Thread nD τ) none) Set.univ
          (Pipeline.chain ([hostOps1, hostOps1_1, hostOps1_2].map StableHlo.seq)) Q' := by
  classical
  subst hn
  have hmem : ∀ ops ∈ ([hostOps1, hostOps1_1, hostOps1_2] : List (List (HloOp τ sig (Elt F)))), ∀ op ∈ ops,
      op ∈ (hostOps1 ++ hostOps1_1 ++ hostOps1_2 : List (HloOp τ sig (Elt F))) := by
    intro ops hops op hop
    simp only [List.mem_cons, List.mem_nil_iff, or_false] at hops
    rcases hops with rfl | rfl | rfl
    · exact List.mem_append_left _ (List.mem_append_left _ hop)
    · exact List.mem_append_left _ (List.mem_append_right _ hop)
    · exact List.mem_append_right _ hop
  have hflat : ([hostOps1, hostOps1_1, hostOps1_2] : List (List (HloOp τ sig (Elt F)))).flatten = hostOps1 ++ hostOps1_1 ++ hostOps1_2 := by
    simp only [List.flatten_cons, List.flatten_nil, List.append_nil, List.append_assoc]
  have hS : ∀ ops ∈ ([hostOps1, hostOps1_1, hostOps1_2] : List (List (HloOp τ sig (Elt F)))), ∀ op ∈ ops,
      op.bufs ⊆ Pipeline.ucRefs τ sig := fun ops ho op h => (host_ops_facts op (hmem ops ho op h)).2.2
  have hf : ∀ ops ∈ ([hostOps1, hostOps1_1, hostOps1_2] : List (List (HloOp τ sig (Elt F)))), ∀ op ∈ ops,
      op.fresh = ∅ := fun ops ho op h => (host_ops_facts op (hmem ops ho op h)).2.1
  have hq : ∀ ops ∈ ([hostOps1, hostOps1_1, hostOps1_2] : List (List (HloOp τ sig (Elt F)))), ∀ op ∈ ops,
      ∀ b ∈ op.writes, tailShare b = fullShare := fun ops ho op h b hb => by
    obtain ⟨⟨y, hy, hne⟩, -, -⟩ := host_ops_facts op (hmem ops ho op h)
    rw [hy, Finset.mem_singleton] at hb
    subst hb
    exact tailShare_of_ne fun e => hne 2 e.symm
  have hkeepW : ∀ w, endVal m c (Proc.devRef .tc (Pipeline.arrRef spec0 w)) = (dats m c).arrAt w cfg0.N := fun w => by
    unfold endVal
    rw [StableHlo.after_of_forall_not_mem _ _ fun op hop hw => ?_, exitVal_arr]
    obtain ⟨⟨y, hy, hne⟩, -, -⟩ := host_ops_facts op hop
    rw [hy, Finset.mem_singleton] at hw
    exact hne w (Proc.devRef_injective _ hw)
  have hZ : (Pipeline.unscopedRest spec0 c (V m c) : sProp 𝕄)
      = Pipeline.unscopedRest spec0 c (fun b => exitVal m c (Proc.devRef .tc b)) := by
    unfold Pipeline.unscopedRest
    exact bigSep_congr fun b hb => congrArg (fun f => (((c.tc : Thread nD τ).loc b) ↦{fullShare} f : sProp 𝕄)) (exitVal_rest m c b hb).symm
  rw [hZ, ← List.append_nil (([hostOps1, hostOps1_1, hostOps1_2] : List (List (HloOp τ sig (Elt F)))).map StableHlo.seq)]
  iintro ⟨Hk, Hb, Ha, HZ⟩
  ihave H := (tail_split m c (exitVal m c) ((dats m c).arrAt · cfg0.N) (exitVal_arr m c)).2 $$ [Ha HZ]
  · isplitl [Ha]; · iexact Ha
    iexact HZ
  icases H with ⟨Hh, H3⟩
  iapply (wp_seqsAt_then c (Pipeline.ucRefs τ sig) tailShare [] [hostOps1, hostOps1_1, hostOps1_2] hS hq hf (exitVal m c)) $$ [Hb Hh]
  · isplitl [Hb]; · iexact Hb
    iexact Hh
  iintro ⟨Hb, Hh⟩
  rw [Pipeline.chain_nil, wp_pure, hflat]
  imodintro
  iapply Hk
  iapply (tail_split m c (endVal m c) ((dats m c).arrAt · cfg0.N) hkeepW).1
  isplitl [Hh]; · iexact Hh
  iexact H3

/-- The lines after the region, as the launch asks for them. -/
theorem tail_run' (c : Dev nD) (Q' : PUnit → sProp 𝕄) :
    iprop((iprop(((dats m c).arrays ((dats m c).arrAt · (Pipeline.pin (pcfgs (F := F)) (fun p => (cfgs p).toPCfg_adm) 0).N) : sProp 𝕄)
              ∗ Pipeline.unscopedRest spec0 c (fun b => endVal m c (Proc.devRef .tc b))) -∗ Q' ⟨⟩)
        ∗ boundary (c.tc : Thread nD τ)
        ∗ ((dats m c).arrays ((dats m c).arrAt · (Pipeline.pin (pcfgs (F := F)) (fun p => (cfgs p).toPCfg_adm) 0).N) : sProp 𝕄)
        ∗ Pipeline.unscopedRest spec0 c (V m c))
      ⊢ wp frame (wpE (Pipeline.defs (pcfgs (F := F)) defs₀) (Variants.lift Variants.none) (c.tc : Thread nD τ) none) Set.univ
          (Pipeline.chain ([hostOps1, hostOps1_1, hostOps1_2].map StableHlo.seq)) Q' :=
  tail_run m c Q' _ rfl

/-- @main is the region continued by the three stretches of host operations. -/
theorem main_around : Pipeline.HMainK (Ix := Unit) (Name := ℕ) (U := UR sig nD τ) (Lvl := ℕ) cfgs 0 defs₀ Variants.none m (main (F := F))
    (fun c b => m (c, b)) (fun _ => Pipeline.chain ([hostOps1, hostOps1_1, hostOps1_2].map StableHlo.seq)) :=
  Pipeline.hmain_around cfgs 0 defs₀ Variants.none m main [] [hostOps1, hostOps1_1, hostOps1_2] trivial trivial
    (fun c => (main_chain c).trans rfl)

/-- THE RUN. From any memory with zero counters every weakly fair execution of @main terminates, no fault; at the
    end every array of the region holds what the library computes from the proof data, and every other unscoped buffer
    what the host operations after the region make of the region's exit contents. -/
theorem run_main : θ_run defs (onTc (τ := τ) (main (F := F))) ⟨m, fun _ => 0, ρ⟩ (fun r => ∀ c : Dev nD,
    (∀ w, r.2.mem (((cfg0).spec w).arr.view.loc (c.tc : Thread nD τ)) = (dats m c).arrAt w cfg0.N)
    ∧ ∀ b ∈ Pipeline.restRefs sig spec0, r.2.mem ((c.tc : Thread nD τ).loc b) = endVal m c (Proc.devRef .tc b)) := by
  classical
  unfold defs
  exact Pipeline.θ_run_region_pf_tail (pcfgs (F := F)) (fun p => (cfgs p).toPCfg_adm) (fun _ c => dats m c) () cellOf_inj 0 winFacts₀0
    (Pipeline.OwnSemFacts.none spec0) (Pipeline.PreFacts.none _) emb₁ defs₀ Variants.none m ρ main
    (fun _ => Pipeline.chain ([hostOps1, hostOps1_1, hostOps1_2].map StableHlo.seq))
    (fun c => (body_obligation m c).loose)
    block_pos0 arr_whole0 stage_whole0 (fun _ _ => rfl)
    (G := fun _ => iprop(emp))
    (u₀ := initOf (Pipeline.cells (Pipeline.pin (pcfgs (F := F)) fun p => (cfgs p).toPCfg_adm) cellOf_inj)
      (Pipeline.launchToks (Pipeline.pin (pcfgs (F := F)) fun p => (cfgs p).toPCfg_adm) cellOf_inj))
    (hu₀ := by
      iintro Hu; imodintro
      isplitl [Hu]; · iapply (show (ownU _ : sProp 𝕄) ⊢ BI.own (emb₁ _) from .rfl); iexact Hu
      iapply (show (BI.emp : sProp 𝕄) ⊢ bigSep Finset.univ (fun _ : Dev nD => (BI.emp : sProp 𝕄)) from by rw [BI.bigSep_emp_const])
      iempintro)
    (V := fun c b => m (c, b))
    (hmain := main_around m)
    (hsplit := fun c => entry_split m c)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (fun b => endVal m c (Proc.devRef .tc b)))
    (hX := fun c => by
      rw [Pipeline.unscopedRestP_none]
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => tail_run' m c Q')
    (QY := fun c s => ∀ b ∈ Pipeline.restRefs sig spec0, s.mem ((c.tc : Thread nD τ).loc b) = endVal m c (Proc.devRef .tc b))
    (hY := fun c s' => by
      iintro ⟨-, HU, HSI⟩
      unfold Pipeline.unscopedRest
      imodintro
      iapply (pointsTo_read_all (Pipeline.restRefs sig spec0) (fun b => (c.tc : Thread nD τ).loc b) (fun b => endVal m c (Proc.devRef .tc b)) s')
      isplitl [HU] <;> iassumption)
    (hQ := fun s h c => ⟨(h c).1, (h c).2.2⟩)

end Cert.KernelIdeal.Hand

end
-- ==== Proof.KI.Frame.lean ====
/-
  The frame of the program, at any float instance: it runs to the end, faults nowhere, and its three argument arrays
  end as they were launched — each is an input window's array, which no write-back touches.
-/
import proofs.«121518_j4621384810785_1_alg».proof.Proof.KI.Launch

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal.Hand

/-- The frame claim's statement, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).1 0).trans (((dats m c).arrAt_in 0 rfl _).trans (A_eq m c 0)),
     ((h c).1 1).trans (((dats m c).arrAt_in 1 rfl _).trans (A_eq m c 1)),
     ((h c).1 2).trans (((dats m c).arrAt_in 2 rfl _).trans (A_eq m c 2))⟩) (run_main m ρ)

end Cert.KernelIdeal.Hand

end
-- ==== Proof.Spec.lean ====
/-
  What both programs compute, as formulas on the extended reals.

  With A and B the two N×N matrices (N = 10000) and O the N×16 matrix:
    total A        = Σ_r Σ_q A(r,q)                         (the sum of every entry of A)
    prod A O r k   = Σ_j A(r,j) · O(j,k)                    (the matrix product A·O at (r,k))
    rowdot A O r   = Σ_k O(r,k) · prod A O r k              (row r of O against row r of A·O)
    loss raw T r   = raw r / T
    colsum O k     = Σ_j O(j,k),   normsq O = Σ_k (colsum O k)²
    reg O c        = √(normsq O) / 10000 · c − 1
    clu S A T O c  = −((Σ_r S r / T + Σ_r A r / T) − reg O c)
  The four results are clu (a scalar) and, per row r, −S r / T, −A r / T and −(S r / T + A r / T), with
  S = rowdot A O, A = rowdot B O, T = total A.  The factor c is the literal 4 in one program and √16 in the
  other: `sqrt_sixteen` says they are the same extended real.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

abbrev SNN : Shape := ⟨2, ![10000, 10000]⟩
abbrev SNK : Shape := ⟨2, ![10000, 16]⟩
abbrev SN : Shape := ⟨1, ![10000]⟩
abbrev S0 : Shape := ⟨0, ![]⟩

/-- The sum of every entry of an N×N matrix. -/
def total (A : SNN.Idx → EReal) : EReal := ∑ r : Fin 10000, ∑ q : Fin 10000, A (ix2 r q)

/-- The matrix product A·O at (r, k). -/
def prod (A : SNN.Idx → EReal) (O : SNK.Idx → EReal) (r : Fin 10000) (k : Fin 16) : EReal :=
  ∑ j : Fin 10000, A (ix2 r j) * O (ix2 j k)

/-- Row r of O against row r of A·O. -/
def rowdot (A : SNN.Idx → EReal) (O : SNK.Idx → EReal) (r : Fin 10000) : EReal :=
  ∑ k : Fin 16, O (ix2 r k) * prod A O r k

/-- A raw row value over the total. -/
def loss (raw : Fin 10000 → EReal) (T : EReal) (r : Fin 10000) : EReal := Ideal.div (raw r) T

/-- Column k of O summed. -/
def colsum (O : SNK.Idx → EReal) (k : Fin 16) : EReal := ∑ j : Fin 10000, O (ix2 j k)

/-- The squared Euclidean length of the vector of column sums. -/
def normsq (O : SNK.Idx → EReal) : EReal := ∑ k : Fin 16, colsum O k * colsum O k

/-- The regularisation term, with the factor `c` (4, or √16) left as a parameter. -/
def reg (O : SNK.Idx → EReal) (c : EReal) : EReal :=
  Ideal.div (Ideal.sqrt (normsq O)) (Ideal.ofBits .f32 0x461C4000#32) * c - Ideal.ofBits .f32 0x3F800000#32

/-- The scalar result. -/
def clu (S A : Fin 10000 → EReal) (T : EReal) (O : SNK.Idx → EReal) (c : EReal) : EReal :=
  -(((∑ r : Fin 10000, loss S T r) + ∑ r : Fin 10000, loss A T r) - reg O c)

/-- The row of an index of a length-N vector, and of an N×1 column, as a number below N (named once, so that no
    statement leans on unfolding a shape's coordinate type). -/
def row1 (i : SN.Idx) : Fin 10000 := i 0
def rowc (i : (⟨2, ![10000, 1]⟩ : Shape).Idx) : Fin 10000 := i 0

theorem row1_ix1 (r : Fin 10000) : row1 (ix1 r) = r := rfl
theorem rowc_ix2 (r : Fin 10000) (u : Fin 1) : rowc (ix2 r u) = r := rfl

/-- The four results as whole arrays of the three arguments (`c` the factor above). -/
def G0 (A B : SNN.Idx → EReal) (O : SNK.Idx → EReal) (c : EReal) : S0.Idx → EReal :=
  fun _ => clu (rowdot A O) (rowdot B O) (total A) O c
def G1 (A : SNN.Idx → EReal) (O : SNK.Idx → EReal) : SN.Idx → EReal :=
  fun i => -(loss (rowdot A O) (total A) (row1 i))
def G2 (A B : SNN.Idx → EReal) (O : SNK.Idx → EReal) : SN.Idx → EReal :=
  fun i => -(loss (rowdot B O) (total A) (row1 i))
def G3 (A B : SNN.Idx → EReal) (O : SNK.Idx → EReal) : SN.Idx → EReal :=
  fun i => -(loss (rowdot A O) (total A) (row1 i) + loss (rowdot B O) (total A) (row1 i))

/-- The literal 4.0 denotes the real 4 … -/
theorem ofBits_four : Ideal.ofBits .f32 0x40800000#32 = ((4 : ℝ) : EReal) := by
  simp [Ideal.ofBits, Ideal.ieee, -EReal.coe_mul]; norm_num

/-- … and the literal 16.0 the real 16. -/
theorem ofBits_sixteen : Ideal.ofBits .f32 0x41800000#32 = ((16 : ℝ) : EReal) := by
  simp [Ideal.ofBits, Ideal.ieee, -EReal.coe_mul]; norm_num

/-- √16 = 4 on the extended reals: the square root of the literal 16.0 is the literal 4.0. -/
theorem sqrt_sixteen : Ideal.sqrt (Ideal.ofBits .f32 0x41800000#32) = Ideal.ofBits .f32 0x40800000#32 := by
  rw [ofBits_sixteen, ofBits_four]
  show (if (16 : ℝ) < 0 then (⊥ : EReal) else ((Real.sqrt 16 : ℝ) : EReal)) = _
  rw [if_neg (by norm_num)]
  congr 1
  rw [show (16 : ℝ) = 4 ^ 2 by norm_num, Real.sqrt_sq (by norm_num)]

end Cert.Spec

end
-- ==== Proof.KI.Args.lean ====
/-
  The three argument arrays at the extended reals, named once for the value modules.
-/
import proofs.«121518_j4621384810785_1_alg».proof.Proof.KI.Data
import proofs.«121518_j4621384810785_1_alg».proof.Proof.Spec

set_option maxRecDepth 16384

noncomputable section

open scoped BigOperators

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ)

/-- The three argument arrays on core `c`, as launched. -/
abbrev argA (c : Dev nD) : S10000x10000.Idx → EReal := m ((c : Thread nD τ).loc main_arg0)
abbrev argB (c : Dev nD) : S10000x10000.Idx → EReal := m ((c : Thread nD τ).loc main_arg1)
abbrev argO (c : Dev nD) : S10000x16.Idx → EReal := m ((c : Thread nD τ).loc main_arg2)

end Cert.KernelIdeal.HandValue

end
-- ==== Proof.LibPlainMatmul.lean ====
/-
  A general fact about the ideal reading of a matrix product, independent of any program: a kernel's matrix product of an
  m×k by a k×n matrix (no batch axis; the left operand's columns contracted with the right operand's rows) into a zero
  accumulator, read at the entry (a, b), is the textbook sum  Σ_c A(a, c) · B(c, b)  on the extended reals.
  (The host's `dot_general` of the same shape has this reading in the library already; this is its twin for the kernel's
  accumulate-into-zero form.)
-/
import Idealize.ShloMosaic.PureOps.Ideal.Laws
import Idealize.ShloMosaic.Lib.ValueIdx

noncomputable section

namespace Idealize.ShloMosaic.LibPlainMatmul

open Idealize.ShloMosaic Idealize.ShloMosaic.ValueIdx

/-- The plain product of an m×k by a k×n matrix accumulated into the f32 zero splat, at the ideal values and at the
    entry (a, b): the sum over the contracted coordinate c of A(a, c) · B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (⟨2, ![m, n]⟩ : Shape) .f32 0x00000000#32) (ix2 a b)
      = ∑ c : Fin k, A (ix2 a c) * B (ix2 c b) := by
  show FloatOps.matmul (DotDims.plain m k n) prec A B (constant (⟨2, ![m, n]⟩ : Shape) .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c): its row is the output's row, its column the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right operand at (c, b): its row the contracted coordinate, its column the output's column
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Idealize.ShloMosaic.LibPlainMatmul

end
-- ==== Proof.LibColumn.lean ====
/-
  Two layout readings a row reduction with kept dimensions needs: a length-a vector cast to an a × 1 column, and an
  a × 1 column broadcast along the rows of an a × b array, each read at an index.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KI.Final45.lean ====
/-
  The two per-row result arrays of the region, at the extended reals: entry r of the first is row r of O against
  row r of A·O, of the second the same with B.

  Each point t of the region stores, for its 80 rows, the lane sum of the rows of O against the product of the
  point's rows of the matrix with the whole of O; the row blocks 80t … 80t+79 tile the 10000 rows, so after the
  last write-back each array holds the row value at every row.
-/
import proofs.«121518_j4621384810785_1_alg».proof.Proof.KI.Args
import proofs.«121518_j4621384810785_1_alg».proof.Proof.LibPlainMatmul
import proofs.«121518_j4621384810785_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

/-! ## One block's result at a row

The stored block is, row by row, the lane sum of the point's N×16 rows against the product of the point's
matrix rows with the whole N×16 matrix; the narrowing casts are the identity on the extended reals. -/

/-- The product of an 80×10000 block by the 10000×16 matrix into the zero block, at (p, k). -/
theorem matmul_block_apply (x : FVec Ideal S80x10000 .bf16) (y : FVec Ideal S10000x16 .bf16) (p : Fin 80) (k : Fin 16) :
    matmul dot_S80x10000_S10000x16_S80x16_1_0_0_1_n_n none x y (constant (F := Ideal) S80x16 .f32 0x00000000#32) (ix2 p k)
      = ∑ j : Fin 10000, x (ix2 p j) * y (ix2 j k) :=
  Idealize.ShloMosaic.LibPlainMatmul.matmul_plain_zero_apply none x y p k

/-- The lane sum of an 80×16 block from the zero word, at row p. -/
theorem lanesum_apply (v : FVec Ideal S80x16 .f32) (hφ : FKind.Formats .f32) (hacc : (0x00000000#32 : BitVec 32) = 0x00000000#32) (p : Fin 80) :
    multiReduction (F := Ideal) .add [1] S80 v 0x00000000#32 reduces_S80x16_S80 hφ hacc (ix1 p) = ∑ k : Fin 16, v (ix2 p k) := by
  refine (Ideal.multiReduction_add_single v 0x00000000#32 reduces_S80x16_S80 hφ hacc (ix1 p)).trans ?_
  refine Finset.sum_congr rfl fun k _ => congrArg v ?_
  funext ax; apply Fin.ext
  match ax with
  | ⟨0, _⟩ => rfl
  | ⟨1, _⟩ => rfl

/-- The first stored block at row p: Σ_k x2(p,k) · Σ_j x0(p,j) · x3(j,k). -/
theorem pay3_apply (x0 : Vec Ideal S80x10000 .f32) (x2 : Vec Ideal S80x16 .f32) (x3 : Vec Ideal S10000x16 .f32) (p : Fin 80) :
    k0_pay3 (F := Ideal) x0 x2 x3 (ix2 p (0 : Fin 1)) = ∑ k : Fin 16, x2 (ix2 p k) * ∑ j : Fin 10000, x0 (ix2 p j) * x3 (ix2 j k) := by
  unfold k0_pay3 k0_pay2
  refine (Cert.LibColumn.shapeCast_a_a1_apply _ shapeCasts_S80_S80x1 p 0).trans ?_
  refine (lanesum_apply _ _ _ p).trans ?_
  refine Finset.sum_congr rfl fun k _ => ?_
  rw [mulf_apply, matmul_block_apply]
  rfl

/-- The second stored block is the same function of its matrix block. -/
theorem pay4_eq (x1 : Vec Ideal S80x10000 .f32) (x2 : Vec Ideal S80x16 .f32) (x3 : Vec Ideal S10000x16 .f32) :
    k0_pay4 (F := Ideal) x1 x2 x3 = k0_pay3 (F := Ideal) x1 x2 x3 := rfl

/-! ## The input blocks as rows of the arguments -/

/-- The block indices over the grid: the row-block windows sit at block (t, 0), the whole-matrix window at (0, 0). -/
theorem blockIdx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

variable (m : (ℓ : Loc nD τ sig) → Buf (Elt Ideal) ℓ)

/-- Row p of the first matrix's block at point t is row 80t + p of the matrix. -/
theorem adjBlk_apply (c : Dev nD) (t : Fin cfg0.N) (p : Fin 80) (j r : Fin 10000) (hr : r.val = 80 * t.val + p.val) :
    adjBlk m c t (ix2 p j) = argA m c (ix2 r j) := by
  obtain ⟨e0, e1, -⟩ := blockIdx t
  show V m c main_arg0 (((cfg0.win 0).blk t).view.emb (ix2 p j)) = m (c.tc.loc main_arg0) (ix2 r j)
  unfold V
  congr 1
  funext a
  apply Fin.ext
  match a with
  | ⟨0, _⟩ => show win0_0.index t (0 : Fin 2) * 80 + 1 * p.val = r.val; rw [e0, hr]; omega
  | ⟨1, _⟩ => show win0_0.index t (1 : Fin 2) * 10000 + 1 * j.val = j.val; rw [e1]; omega

/-- … of the second matrix's block, of the second matrix. -/
theorem attBlk_apply (c : Dev nD) (t : Fin cfg0.N) (p : Fin 80) (j r : Fin 10000) (hr : r.val = 80 * t.val + p.val) :
    attBlk m c t (ix2 p j) = argB m c (ix2 r j) := by
  obtain ⟨-, -, e0, e1, -⟩ := blockIdx t
  show V m c main_arg1 (((cfg0.win 1).blk t).view.emb (ix2 p j)) = m (c.tc.loc main_arg1) (ix2 r j)
  unfold V
  congr 1
  funext a
  apply Fin.ext
  match a with
  | ⟨0, _⟩ => show win0_1.index t (0 : Fin 2) * 80 + 1 * p.val = r.val; rw [e0, hr]; omega
  | ⟨1, _⟩ => show win0_1.index t (1 : Fin 2) * 10000 + 1 * j.val = j.val; rw [e1]; omega

/-- … of the N×16 matrix's block, of that matrix. -/
theorem outBlk_apply (c : Dev nD) (t : Fin cfg0.N) (p : Fin 80) (k : Fin 16) (r : Fin 10000) (hr : r.val = 80 * t.val + p.val) :
    outBlk m c t (ix2 p k) = argO m c (ix2 r k) := by
  obtain ⟨-, -, -, -, e0, e1, -⟩ := blockIdx t
  show V m c main_arg2 (((cfg0.win 2).blk t).view.emb (ix2 p k)) = m (c.tc.loc main_arg2) (ix2 r k)
  unfold V
  congr 1
  funext a
  apply Fin.ext
  match a with
  | ⟨0, _⟩ => show win0_2.index t (0 : Fin 2) * 80 + 1 * p.val = r.val; rw [e0, hr]; omega
  | ⟨1, _⟩ => show win0_2.index t (1 : Fin 2) * 16 + 1 * k.val = k.val; rw [e1]; omega

/-- The whole-matrix window reads the N×16 matrix itself. -/
theorem outAll_apply (c : Dev nD) (t : Fin cfg0.N) (j : Fin 10000) (k : Fin 16) :
    outAll m c t (ix2 j k) = argO m c (ix2 j k) := by
  obtain ⟨-, -, -, -, -, -, e0, e1, -⟩ := blockIdx t
  show V m c main_arg2 (((cfg0.win 3).blk t).view.emb (ix2 j k)) = m (c.tc.loc main_arg2) (ix2 j k)
  unfold V
  congr 1
  funext a
  apply Fin.ext
  match a with
  | ⟨0, _⟩ => show win0_3.index t (0 : Fin 2) * 10000 + 1 * j.val = j.val; rw [e0]; omega
  | ⟨1, _⟩ => show win0_3.index t (1 : Fin 2) * 16 + 1 * k.val = k.val; rw [e1]; omega

/-! ## One block's result as rows of the whole-array function -/

/-- The first stored block at point t, row p, is the row value of row 80t + p. -/
theorem block4_row (c : Dev nD) (t : Fin cfg0.N) (p : Fin 80) (r : Fin 10000) (hr : r.val = 80 * t.val + p.val) :
    k0_pay3 (F := Ideal) (adjBlk m c t) (outBlk m c t) (outAll m c t) (ix2 p (0 : Fin 1))
      = Cert.Spec.rowdot (argA m c) (argO m c) r := by
  refine (pay3_apply _ _ _ p).trans ?_
  unfold Cert.Spec.rowdot Cert.Spec.prod
  refine Finset.sum_congr rfl fun k _ => ?_
  refine congrArg₂ (· * ·) (outBlk_apply m c t p k r hr) (Finset.sum_congr rfl fun j _ => ?_)
  exact congrArg₂ (· * ·) (adjBlk_apply m c t p j r hr) (outAll_apply m c t j k)

/-- The second stored block likewise, with the second matrix. -/
theorem block5_row (c : Dev nD) (t : Fin cfg0.N) (p : Fin 80) (r : Fin 10000) (hr : r.val = 80 * t.val + p.val) :
    k0_pay4 (F := Ideal) (attBlk m c t) (outBlk m c t) (outAll m c t) (ix2 p (0 : Fin 1))
      = Cert.Spec.rowdot (argB m c) (argO m c) r := by
  rw [pay4_eq]
  refine (pay3_apply _ _ _ p).trans ?_
  unfold Cert.Spec.rowdot Cert.Spec.prod
  refine Finset.sum_congr rfl fun k _ => ?_
  refine congrArg₂ (· * ·) (outBlk_apply m c t p k r hr) (Finset.sum_congr rfl fun j _ => ?_)
  exact congrArg₂ (· * ·) (attBlk_apply m c t p j r hr) (outAll_apply m c t j k)

/-- The two whole-array functions. -/
abbrev rows4 (c : Dev nD) : S10000x1.Idx → EReal := fun i => Cert.Spec.rowdot (argA m c) (argO m c) (Cert.Spec.rowc i)
abbrev rows5 (c : Dev nD) : S10000x1.Idx → EReal := fun i => Cert.Spec.rowdot (argB m c) (argO m c) (Cert.Spec.rowc i)

/-- What point t writes back to the first result is block t of the row function. -/
theorem flushed4_eq (c : Dev nD) (t : Fin cfg0.N) :
    (dats (F := Ideal) m c).flushed 4 t = ((cfg0.win 4).blk t).view.read (Elt Ideal) (rows4 m c) := by
  show (cfg0.win 4).cut (grid0.coords t) ((dats (F := Ideal) m c).after 4 t) = _
  rw [after0_4]
  refine funext fun (y : S80x1.Idx) => ?_
  obtain ⟨p, u, rfl⟩ : ∃ (p : Fin 80) (u : Fin 1), y = ix2 p u := ⟨y 0, y 1, eq_ix2 y⟩
  obtain rfl : u = 0 := Subsingleton.elim _ _
  obtain ⟨-, -, -, -, -, -, -, -, e0, -⟩ := blockIdx t
  refine block4_row m c t p (Cert.Spec.rowc (((cfg0.win 4).blk t).view.emb (ix2 p (0 : Fin 1)))) ?_
  show win0_4.index t (0 : Fin 2) * 80 + 1 * p.val = _
  rw [e0]; omega

/-- … and to the second result. -/
theorem flushed5_eq (c : Dev nD) (t : Fin cfg0.N) :
    (dats (F := Ideal) m c).flushed 5 t = ((cfg0.win 5).blk t).view.read (Elt Ideal) (rows5 m c) := by
  show (cfg0.win 5).cut (grid0.coords t) ((dats (F := Ideal) m c).after 5 t) = _
  rw [after0_5]
  refine funext fun (y : S80x1.Idx) => ?_
  obtain ⟨p, u, rfl⟩ : ∃ (p : Fin 80) (u : Fin 1), y = ix2 p u := ⟨y 0, y 1, eq_ix2 y⟩
  obtain rfl : u = 0 := Subsingleton.elim _ _
  obtain ⟨-, -, -, -, -, -, -, -, -, -, e0, -⟩ := blockIdx t
  refine block5_row m c t p (Cert.Spec.rowc (((cfg0.win 5).blk t).view.emb (ix2 p (0 : Fin 1)))) ?_
  show win0_5.index t (0 : Fin 2) * 80 + 1 * p.val = _
  rw [e0]; omega

/-! ## The blocks tile the arrays -/

/-- An index of the first result is in point t's block iff each coordinate is in the block's range. -/
theorem mem_blk4 (t : Fin cfg0.N) (i : S10000x1.Idx) :
    i ∈ ((cfg0.win 4).blk t).view.set ↔ ∀ a : Fin 2, win0_4.index t a * S80x1.size a ≤ (i a).val ∧ (i a).val < win0_4.index t a * S80x1.size a + S80x1.size a := by
  show i ∈ ((View.whole main_v0_0).slice (win0_4.rect t)).set ↔ _
  rw [View.set_slice_whole, Rect.mem_set_unit]
  exact Iff.rfl

theorem mem_blk5 (t : Fin cfg0.N) (i : S10000x1.Idx) :
    i ∈ ((cfg0.win 5).blk t).view.set ↔ ∀ a : Fin 2, win0_5.index t a * S80x1.size a ≤ (i a).val ∧ (i a).val < win0_5.index t a * S80x1.size a + S80x1.size a := by
  show i ∈ ((View.whole main_v0_1).slice (win0_5.rect t)).set ↔ _
  rw [View.set_slice_whole, Rect.mem_set_unit]
  exact Iff.rfl

/-- Row r lies in the block of point r / 80. -/
theorem cover4 (i : S10000x1.Idx) : ∃ t : Fin cfg0.N, (cfg0.win 4).flush t = true ∧ i ∈ ((cfg0.win 4).blk t).view.set := by
  have hi0 : (i 0).val < 10000 := (i 0).isLt
  have hi1 : (i 1).val < 1 := (i 1).isLt
  have hN : cfg0.N = 125 := N_0
  let t : Fin cfg0.N := ⟨(i 0).val / 80, by rw [hN]; omega⟩
  obtain ⟨-, -, -, -, -, -, -, -, e0, e1, -⟩ := blockIdx t
  have ht : t.val = (i 0).val / 80 := rfl
  refine ⟨t, flush0_4 t, ?_⟩
  rw [mem_blk4]
  intro a
  match a with
  | ⟨0, _⟩ => show win0_4.index t (0 : Fin 2) * 80 ≤ (i 0).val ∧ (i 0).val < win0_4.index t (0 : Fin 2) * 80 + 80; rw [e0, ht]; omega
  | ⟨1, _⟩ => show win0_4.index t (1 : Fin 2) * 1 ≤ (i 1).val ∧ (i 1).val < win0_4.index t (1 : Fin 2) * 1 + 1; rw [e1]; omega

theorem cover5 (i : S10000x1.Idx) : ∃ t : Fin cfg0.N, (cfg0.win 5).flush t = true ∧ i ∈ ((cfg0.win 5).blk t).view.set := by
  have hi0 : (i 0).val < 10000 := (i 0).isLt
  have hi1 : (i 1).val < 1 := (i 1).isLt
  have hN : cfg0.N = 125 := N_0
  let t : Fin cfg0.N := ⟨(i 0).val / 80, by rw [hN]; omega⟩
  obtain ⟨-, -, -, -, -, -, -, -, -, -, e0, e1⟩ := blockIdx t
  have ht : t.val = (i 0).val / 80 := rfl
  refine ⟨t, flush0_5 t, ?_⟩
  rw [mem_blk5]
  intro a
  match a with
  | ⟨0, _⟩ => show win0_5.index t (0 : Fin 2) * 80 ≤ (i 0).val ∧ (i 0).val < win0_5.index t (0 : Fin 2) * 80 + 80; rw [e0, ht]; omega
  | ⟨1, _⟩ => show win0_5.index t (1 : Fin 2) * 1 ≤ (i 1).val ∧ (i 1).val < win0_5.index t (1 : Fin 2) * 1 + 1; rw [e1]; omega

/-! ## The two arrays after the region -/

/-- After the region's last write-back the first per-row result holds, at row r, Σ_k O(r,k) · Σ_j A(r,j)·O(j,k). -/
theorem final4 (c : Dev nD) :
    (dats (F := Ideal) m c).arrAt 4 cfg0.N = fun i : S10000x1.Idx => Cert.Spec.rowdot (argA m c) (argO m c) (Cert.Spec.rowc i) :=
  (dats (F := Ideal) m c).arrAt_eq_of_cover 4 (rows4 m c) (fun t _ => flushed4_eq m c t) cover4

/-- … and the second the same with the second matrix. -/
theorem final5 (c : Dev nD) :
    (dats (F := Ideal) m c).arrAt 5 cfg0.N = fun i : S10000x1.Idx => Cert.Spec.rowdot (argB m c) (argO m c) (Cert.Spec.rowc i) :=
  (dats (F := Ideal) m c).arrAt_eq_of_cover 5 (rows5 m c) (fun t _ => flushed5_eq m c t) cover5

end Cert.KernelIdeal.HandValue

end
-- ==== Proof.KI.Final6.lean ====
/-
  The 1×1 result of the region, at the extended reals: the sum of every entry of the first matrix, accumulated block
  of 80 rows by block.
-/
import proofs.«121518_j4621384810785_1_alg».proof.Proof.KI.Args
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ)

/-- The zero the body stores at the first point. -/
theorem pay1_apply : (k0_pay1 (F := Ideal)) (ix2 (0 : Fin 1) (0 : Fin 1)) = 0 := by
  unfold k0_pay1
  exact Ideal.ofBits_zero_f32

/-- Row p of a block summed over its lanes. -/
theorem laneSum_apply (x0 : FVec Ideal S80x10000 .f32) (p : Fin 80) :
    multiReduction (F := Ideal) .add [1] S80 x0 0x00000000#32 reduces_S80x10000_S80 (.inl rfl) rfl (ix1 p)
      = ∑ q : Fin 10000, x0 (ix2 p q) := by
  refine (Ideal.multiReduction_add_single x0 _ reduces_S80x10000_S80 (.inl rfl) rfl (ix1 p)).trans ?_
  refine Finset.sum_congr rfl fun q _ => congrArg x0 ?_
  funext c; apply Fin.ext
  fin_cases c <;> rfl

/-- A column of 80 entries summed over its rows. -/
theorem colSum_apply (y : FVec Ideal S80x1 .f32) :
    multiReduction (F := Ideal) .add [0] S1 y 0x00000000#32 reduces_S80x1_S1 (.inl rfl) rfl (ix1 (0 : Fin 1))
      = ∑ p : Fin 80, y (ix2 p (0 : Fin 1)) := by
  refine (Ideal.multiReduction_add_single y _ reduces_S80x1_S1 (.inl rfl) rfl (ix1 (0 : Fin 1))).trans ?_
  refine Finset.sum_congr rfl fun p _ => congrArg y ?_
  funext c; apply Fin.ext
  fin_cases c <;> rfl

/-- What one point stores in the 1×1 result: what was there plus the sum of the block's 80 × 10000 entries. -/
theorem pay5_apply (x0 : Vec Ideal S80x10000 .f32) (acc : Vec Ideal S1x1 .f32) :
    k0_pay5 x0 acc (ix2 (0 : Fin 1) (0 : Fin 1))
      = acc (ix2 (0 : Fin 1) (0 : Fin 1)) + ∑ p : Fin 80, ∑ q : Fin 10000, x0 (ix2 p q) := by
  unfold k0_pay5
  refine (addf_apply _ _ _).trans ?_
  refine congrArg₂ (· + ·) (congrFun (shapeCast_self acc _) _) ?_
  refine (shapeCast_apply _ shapeCasts_S1_S1x1 (ix2 (0 : Fin 1) (0 : Fin 1)) (ix1 (0 : Fin 1)) (by
    rw [Shape.rowMajor_val_two, Shape.rowMajor_val_one]; rfl)).trans ?_
  refine (colSum_apply _).trans ?_
  refine Finset.sum_congr rfl fun p _ => ?_
  refine (shapeCast_apply _ shapeCasts_S80_S80x1 (ix2 p (0 : Fin 1)) (ix1 p) (by
    rw [Shape.rowMajor_val_two, Shape.rowMajor_val_one]
    show p.val = p.val * 1 + 0
    omega)).trans ?_
  exact laneSum_apply x0 p

/-! ### Where the first window's block sits in the matrix -/

/-- The block index of the first window at point t is (t, 0); that of the 1×1 result is always (0, 0). -/
theorem idx_adj : ∀ t : Fin cfg0.N, win0_0.index t (0 : Fin 2) = t.val ∧ win0_0.index t (1 : Fin 2) = 0 :=
  (by decide +kernel : ∀ t : Fin grid0.N, _)

theorem idx_tot : ∀ t : Fin cfg0.N, win0_6.index t (0 : Fin 2) = 0 ∧ win0_6.index t (1 : Fin 2) = 0 :=
  (by decide +kernel : ∀ t : Fin grid0.N, _)

/-- Entry (p, q) of block t of the first matrix is its entry (80t + p, q). -/
theorem adjBlk_entry (c : Dev nD) (t : Fin cfg0.N) (p : Fin 80) (q : Fin 10000) (h : 80 * t.val + p.val < 10000) :
    adjBlk m c t (ix2 p q) = argA m c (ix2 (⟨80 * t.val + p.val, h⟩ : Fin 10000) q) := by
  obtain ⟨e0, e1⟩ := idx_adj t
  show iblk m c 0 t (ix2 p q) = _
  unfold iblk
  rw [View.read_apply]
  show V m c main_arg0 _ = m (c.tc.loc main_arg0) _
  unfold V
  congr 1
  funext a
  apply Fin.ext
  match a with
  | ⟨0, _⟩ => show win0_0.index t 0 * 80 + 1 * p.val = 80 * t.val + p.val; rw [e0]; omega
  | ⟨1, _⟩ => show win0_0.index t 1 * 10000 + 1 * q.val = q.val; rw [e1]; omega

/-! ### The running total -/

/-- The sum of block t's 80 × 10000 entries. -/
def blockSum (c : Dev nD) (t : Fin cfg0.N) : EReal := ∑ p : Fin 80, ∑ q : Fin 10000, adjBlk m c t (ix2 p q)

/-- After point n the 1×1 result holds the sum of blocks 0 … n: by induction on the point (zero plus a sum is the sum). -/
theorem accAt_apply (c : Dev nD) : ∀ (n : ℕ) (h : n < cfg0.N),
    accAt m c n h (ix2 (0 : Fin 1) (0 : Fin 1))
      = ∑ t : Fin (n + 1), blockSum m c ⟨t.val, Nat.lt_of_lt_of_le t.isLt h⟩
  | 0, h => by
    rw [accAt_zero]
    refine (pay5_apply (adjBlk m c ⟨0, h⟩) (k0_pay1 (F := Ideal))).trans ?_
    rw [pay1_apply, zero_add, Fin.sum_univ_one]
    rfl
  | n + 1, h => by
    rw [accAt_succ]
    refine (pay5_apply (adjBlk m c ⟨n + 1, h⟩) (accAt m c n (Nat.lt_of_succ_lt h))).trans ?_
    rw [accAt_apply c n (Nat.lt_of_succ_lt h)]
    refine Eq.trans ?_ (Fin.sum_univ_castSucc fun t : Fin (n + 1 + 1) =>
      blockSum m c ⟨t.val, Nat.lt_of_lt_of_le t.isLt h⟩).symm
    rfl

/-- A sum over the 10000 rows is the sum over the 125 blocks of the sums over each block's 80 rows. -/
theorem sum_rows_blocks (g : Fin 10000 → EReal) :
    ∑ r : Fin 10000, g r
      = ∑ t : Fin 125, ∑ p : Fin 80, g ⟨80 * t.val + p.val, by have := t.isLt; have := p.isLt; omega⟩ := by
  have e := Equiv.sum_comp (finProdFinEquiv (m := 125) (n := 80)) (g : Fin (125 * 80) → EReal)
  rw [Fintype.sum_prod_type] at e
  refine e.symm.trans ?_
  refine Finset.sum_congr rfl fun t _ => Finset.sum_congr rfl fun p _ => congrArg g (Fin.ext ?_)
  show p.val + 80 * t.val = 80 * t.val + p.val
  omega

/-- After the last point the 1×1 result holds the sum of every entry of the first matrix. -/
theorem accAt_last (c : Dev nD) (h : 124 < cfg0.N) :
    accAt m c 124 h = fun _ : S1x1.Idx => Cert.Spec.total (argA m c) := by
  funext j
  obtain ⟨a, b, rfl⟩ : ∃ (a : Fin 1) (b : Fin 1), j = ix2 a b := ⟨j 0, j 1, eq_ix2 j⟩
  obtain rfl : a = 0 := Subsingleton.elim _ _
  obtain rfl : b = 0 := Subsingleton.elim _ _
  rw [accAt_apply m c 124 h]
  unfold Cert.Spec.total
  rw [sum_rows_blocks]
  refine Finset.sum_congr rfl fun t _ => ?_
  unfold blockSum
  refine Finset.sum_congr rfl fun p _ => Finset.sum_congr rfl fun q _ => ?_
  exact adjBlk_entry m c ⟨t.val, Nat.lt_of_lt_of_le t.isLt h⟩ p q (by have := t.isLt; have := p.isLt; show 80 * t.val + p.val < 10000; omega)

/-! ### The one write-back -/

/-- The last point. -/
abbrev tLast : Fin cfg0.N := ⟨124, by rw [show cfg0.N = 125 from N_0]; decide⟩

/-- The one write-back, at the last point, writes the total: block (0, 0) of the 1×1 array is the array. -/
theorem flushed_eq (c : Dev nD) (t : Fin cfg0.N) (hf : (cfg0.win 6).flush t = true) :
    (dats (F := Ideal) m c).flushed 6 t
      = ((cfg0.win 6).blk t).view.read (Elt Ideal) (fun _ : S1x1.Idx => Cert.Spec.total (argA m c)) := by
  have hN : cfg0.N = 125 := N_0
  have h124 : t.val = 124 := by have := (flush0_6 t).mp hf; have := t.isLt; omega
  obtain rfl : t = tLast := Fin.ext h124
  show (cfg0.win 6).cut (grid0.coords tLast) ((dats (F := Ideal) m c).after 6 tLast) = _
  rw [after0_6, accAt_last]
  obtain ⟨e0, e1⟩ := idx_tot tLast
  have hz' : (fun a => win0_6.index tLast a * main_v0_2.ty.shape.size a) = fun _ => 0 := funext fun a => by
    match a with
    | ⟨0, _⟩ => show win0_6.index tLast 0 * 1 = 0; rw [e0]
    | ⟨1, _⟩ => show win0_6.index tLast 1 * 1 = 0; rw [e1]
  exact (Memref.read_access_unit_zero (Elt Ideal) main_v0_2 hz' (fun a => by rw [congrFun hz' a]; simp)
    (fun _ : S1x1.Idx => Cert.Spec.total (argA m c))).symm

/-- After the region's one write-back (at the last point) the 1×1 result holds the sum of every entry of A. -/
theorem final6 (c : Dev nD) :
    (dats (F := Ideal) m c).arrAt 6 cfg0.N = fun _ : S1x1.Idx => Cert.Spec.total (argA m c) :=
  (dats (F := Ideal) m c).arrAt_eq_of_cover 6 (fun _ : S1x1.Idx => Cert.Spec.total (argA m c)) (flushed_eq m c) fun i =>
    ⟨tLast, (flush0_6 tLast).mpr rfl, by
      show i ∈ ((View.whole main_v0_2).slice (win0_6.rect tLast)).set
      rw [View.set_slice_whole, Rect.mem_set_unit]
      obtain ⟨e0, e1⟩ := idx_tot tLast
      intro a
      have h0 : (i 0 : Nat) < 1 := (i 0).isLt
      have h1 : (i 1 : Nat) < 1 := (i 1).isLt
      match a with
      | ⟨0, _⟩ =>
        show win0_6.index tLast 0 * 1 ≤ (i 0 : Nat) ∧ (i 0 : Nat) < win0_6.index tLast 0 * 1 + 1
        rw [e0]; omega
      | ⟨1, _⟩ =>
        show win0_6.index tLast 1 * 1 ≤ (i 1 : Nat) ∧ (i 1 : Nat) < win0_6.index tLast 1 * 1 + 1
        rw [e1]; omega⟩

end Cert.KernelIdeal.HandValue

end
-- ==== Proof.KI.Tail.lean ====
/-
  The program's four results at the extended reals: the host operations after the region applied to the region's
  three result arrays.
-/
import proofs.«121518_j4621384810785_1_alg».proof.Proof.KI.Launch
import proofs.«121518_j4621384810785_1_alg».proof.Proof.KI.Final45
import proofs.«121518_j4621384810785_1_alg».proof.Proof.KI.Final6
import Idealize.ShloMosaic.Lib.ValueIdxRank1

set_option maxRecDepth 16384

noncomputable section

open scoped BigOperators

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ)

/-! ## The layout operations at an index -/

/-- The N×1 column of row values read as a length-N vector: entry i is the value of row i. -/
theorem cast_col_at {α : Type} (f : Fin 10000 → α) (h : S10000x1.ShapeCasts S10000) (i : S10000.Idx) :
    shapeCast S10000 (fun j : S10000x1.Idx => f (Cert.Spec.rowc j)) h i = f (Cert.Spec.row1 i) :=
  (shapeCast_apply _ h i (ix2 (Cert.Spec.row1 i) (0 : Fin 1)) (by
    rw [Shape.rowMajor_val_two, Shape.rowMajor_val_one]
    show (i 0).val * 1 + 0 = (i 0).val
    omega)).trans rfl

/-- The vector of raw row values over the total: the column of row values read as a vector, divided entry by entry by
    the 1×1 total read as a scalar and spread over the rows. -/
theorem lossvec (f : Fin 10000 → EReal) (T : EReal) :
    Host.divf (F := Ideal) (φ := .f32)
        (fun i => shapeCast S10000 (fun j : S10000x1.Idx => f (Cert.Spec.rowc j)) shapeCasts_S10000x1_S10000 i)
        (broadcastInDim S10000 ![] bcast_S_S10000 fun i => shapeCast S_ (fun _ : S1x1.Idx => T) shapeCasts_S1x1_S_ i)
      = fun i => Cert.Spec.loss f T (Cert.Spec.row1 i) := by
  funext i
  show Ideal.div (shapeCast S10000 (fun j : S10000x1.Idx => f (Cert.Spec.rowc j)) shapeCasts_S10000x1_S10000 i) T = _
  rw [cast_col_at]
  rfl

/-! ## The host's sums -/

/-- The sum of a length-N vector from the zero word is the sum of its entries. -/
theorem sum_vec (x : S10000.Idx → EReal) :
    Host.reduceAdd (F := Ideal) x (constant S_ .f32 0x00000000#32) reducesTo_S10000_S_d0 h_S_
      = fun _ => ∑ r : Fin 10000, x (ix1 r) := by
  funext j
  simp only [Host.reduceAdd, Ideal.hostReduceAdd_def]
  rw [Ideal.hostReduceAdd_total reducesTo_S10000_S_d0 (fun b => b.elim0) x _ j]
  show Ideal.ofBits .f32 0x00000000#32 + _ = _
  rw [Ideal.ofBits_zero_f32, zero_add, ← Equiv.sum_comp (idxEquiv1 (n := 10000)).symm x]
  rfl

/-- The raw row values over the total, summed over the rows. -/
theorem sumloss_eq (f : Fin 10000 → EReal) (T : EReal) (i : S_.Idx) :
    Host.reduceAdd (F := Ideal)
        (Host.divf (F := Ideal) (φ := .f32)
          (fun i => shapeCast S10000 (fun j : S10000x1.Idx => f (Cert.Spec.rowc j)) shapeCasts_S10000x1_S10000 i)
          (broadcastInDim S10000 ![] bcast_S_S10000 fun i => shapeCast S_ (fun _ : S1x1.Idx => T) shapeCasts_S1x1_S_ i))
        (constant S_ .f32 0x00000000#32) reducesTo_S10000_S_d0 h_S_ i
      = ∑ r : Fin 10000, Cert.Spec.loss f T r := by
  rw [lossvec, sum_vec]
  rfl

/-- Column k of O summed. -/
theorem colsum_eq (x2 : S10000x16.Idx → EReal) (k : Fin 16) :
    Host.reduceAdd (F := Ideal) x2 (constant S_ .f32 0x00000000#32) reducesTo_S10000x16_S16_d0 h_S_ (ix1 k)
      = Cert.Spec.colsum x2 k := by
  simp only [Host.reduceAdd, Ideal.hostReduceAdd_def]
  rw [Ideal.hostReduceAdd_single reducesTo_S10000x16_S16_d0 (by decide)]
  show Ideal.ofBits .f32 0x00000000#32 + _ = _
  rw [Ideal.ofBits_zero_f32, zero_add]
  unfold Cert.Spec.colsum
  exact Finset.sum_congr rfl fun j _ => congrArg x2 (funext fun a => Fin.ext (by
    match a with
    | ⟨0, _⟩ => rfl
    | ⟨1, _⟩ => rfl))

/-- The squared length of the vector of column sums. -/
theorem normsq_eq (x2 : S10000x16.Idx → EReal) (i : S_.Idx) :
    Host.reduceAdd (F := Ideal)
        (mulf (Host.reduceAdd (F := Ideal) x2 (constant S_ .f32 0x00000000#32) reducesTo_S10000x16_S16_d0 h_S_)
          (Host.reduceAdd (F := Ideal) x2 (constant S_ .f32 0x00000000#32) reducesTo_S10000x16_S16_d0 h_S_))
        (constant S_ .f32 0x00000000#32) reducesTo_S16_S_d0 h_S_ i
      = Cert.Spec.normsq x2 := by
  simp only [Host.reduceAdd, Ideal.hostReduceAdd_def]
  rw [Ideal.hostReduceAdd_total reducesTo_S16_S_d0 (fun b => b.elim0) _ _ i]
  show Ideal.ofBits .f32 0x00000000#32 + _ = _
  rw [Ideal.ofBits_zero_f32, zero_add, ← Equiv.sum_comp (idxEquiv1 (n := 16)).symm]
  unfold Cert.Spec.normsq
  refine Finset.sum_congr rfl fun k _ => ?_
  exact congrArg₂ (· * ·) (colsum_eq x2 k) (colsum_eq x2 k)

/-- The regularisation term, its factor the literal 4. -/
theorem reg_eq (x2 : S10000x16.Idx → EReal) (i : S_.Idx) :
    subf (F := Ideal)
        (mulf (F := Ideal)
          (Host.divf (F := Ideal)
            (Host.sqrt (F := Ideal)
              (Host.reduceAdd (F := Ideal)
                (mulf (Host.reduceAdd (F := Ideal) x2 (constant S_ .f32 0x00000000#32) reducesTo_S10000x16_S16_d0 h_S_)
                  (Host.reduceAdd (F := Ideal) x2 (constant S_ .f32 0x00000000#32) reducesTo_S10000x16_S16_d0 h_S_))
                (constant S_ .f32 0x00000000#32) reducesTo_S16_S_d0 h_S_))
            (constant S_ .f32 0x461C4000#32))
          (constant S_ .f32 0x40800000#32))
        (constant S_ .f32 0x3F800000#32) i
      = Cert.Spec.reg x2 (Ideal.ofBits .f32 0x40800000#32) := by
  unfold Cert.Spec.reg
  rw [← normsq_eq x2 i]
  rfl

/-! ## The four results -/

open Idealize.ShloMosaic.StableHlo in
theorem end_v17 (c : Dev nD) :
    endVal (F := Ideal) m c (Proc.devRef .tc main_v17)
      = Cert.Spec.G0 (argA m c) (argB m c) (argO m c) (Ideal.ofBits .f32 0x40800000#32) := by
  unfold endVal exitVal
  simp only [hostOps1, hostOps1_1, hostOps1_2, List.cons_append, List.nil_append]
  after_results_simp
  rw [final4, final5, final6]
  simp only [TRef.toBuf, TRef.ofBuf, cast_eq]
  funext i
  exact congrArg Neg.neg (congrArg₂ (· - ·)
    (congrArg₂ (· + ·)
      (sumloss_eq (Cert.Spec.rowdot (argA m c) (argO m c)) (Cert.Spec.total (argA m c)) i)
      (sumloss_eq (Cert.Spec.rowdot (argB m c) (argO m c)) (Cert.Spec.total (argA m c)) i))
    (reg_eq (argO m c) i))

open Idealize.ShloMosaic.StableHlo in
theorem end_v18 (c : Dev nD) :
    endVal (F := Ideal) m c (Proc.devRef .tc main_v18) = Cert.Spec.G1 (argA m c) (argO m c) := by
  unfold endVal exitVal
  simp only [hostOps1, hostOps1_1, hostOps1_2, List.cons_append, List.nil_append]
  after_results_simp
  rw [final4, final6]
  exact congrArg (Host.negf (F := Ideal)) (lossvec (Cert.Spec.rowdot (argA m c) (argO m c)) (Cert.Spec.total (argA m c)))

open Idealize.ShloMosaic.StableHlo in
theorem end_v19 (c : Dev nD) :
    endVal (F := Ideal) m c (Proc.devRef .tc main_v19) = Cert.Spec.G2 (argA m c) (argB m c) (argO m c) := by
  unfold endVal exitVal
  simp only [hostOps1, hostOps1_1, hostOps1_2, List.cons_append, List.nil_append]
  after_results_simp
  rw [final5, final6]
  exact congrArg (Host.negf (F := Ideal)) (lossvec (Cert.Spec.rowdot (argB m c) (argO m c)) (Cert.Spec.total (argA m c)))

open Idealize.ShloMosaic.StableHlo in
theorem end_v21 (c : Dev nD) :
    endVal (F := Ideal) m c (Proc.devRef .tc main_v21) = Cert.Spec.G3 (argA m c) (argB m c) (argO m c) := by
  unfold endVal exitVal
  simp only [hostOps1, hostOps1_1, hostOps1_2, List.cons_append, List.nil_append]
  after_results_simp
  rw [final4, final5, final6]
  exact congrArg (Host.negf (F := Ideal)) (congrArg₂ (addf (F := Ideal))
    (lossvec (Cert.Spec.rowdot (argA m c) (argO m c)) (Cert.Spec.total (argA m c)))
    (lossvec (Cert.Spec.rowdot (argB m c) (argO m c)) (Cert.Spec.total (argA m c))))

end Cert.KernelIdeal.HandValue

end
-- ==== Proof.KI.Value.lean ====
/-
  The program's run at the extended reals with its four results named: the specification's functions of the three
  argument arrays (the factor of the regularisation term the literal 4).
-/
import proofs.«121518_j4621384810785_1_alg».proof.Proof.KI.Tail
import proofs.«121518_j4621384810785_1_alg».proof.Proof.KI.Frame

set_option maxRecDepth 16384

noncomputable section

open scoped BigOperators

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ) (ρ : Dev nD → PrngReg)

/-- The four result buffers bypass the region: unscoped, and no window's array. -/
theorem v17_rest : main_v17 ∈ Pipeline.restRefs sig spec0 := Pipeline.mem_restRefs_of main_v17 rfl (by decide)
theorem v18_rest : main_v18 ∈ Pipeline.restRefs sig spec0 := Pipeline.mem_restRefs_of main_v18 rfl (by decide)
theorem v19_rest : main_v19 ∈ Pipeline.restRefs sig spec0 := Pipeline.mem_restRefs_of main_v19 rfl (by decide)
theorem v21_rest : main_v21 ∈ Pipeline.restRefs sig spec0 := Pipeline.mem_restRefs_of main_v21 rfl (by decide)

/-- THE RUN AT THE EXTENDED REALS: every weakly fair execution terminates with the four results at the specification's
    functions of the argument arrays, the arguments unchanged. -/
theorem run : θ_run (defs (F := Ideal)) (onTc (τ := τ) (main (F := Ideal))) ⟨m, fun _ => 0, ρ⟩ (fun r => ∀ c : Dev nD,
      r.2.mem ((c.tc : Thread nD τ).loc main_v17)
          = Cert.Spec.G0 (argA m c) (argB m c) (argO m c) (Ideal.ofBits .f32 0x40800000#32)
      ∧ r.2.mem ((c.tc : Thread nD τ).loc main_v18) = Cert.Spec.G1 (argA m c) (argO m c)
      ∧ r.2.mem ((c.tc : Thread nD τ).loc main_v19) = Cert.Spec.G2 (argA m c) (argB m c) (argO m c)
      ∧ r.2.mem ((c.tc : Thread nD τ).loc main_v21) = Cert.Spec.G3 (argA m c) (argB m c) (argO m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v17 v17_rest).trans (end_v17 m c),
     ((h c).2 main_v18 v18_rest).trans (end_v18 m c),
     ((h c).2 main_v19 v19_rest).trans (end_v19 m c),
     ((h c).2 main_v21 v21_rest).trans (end_v21 m c),
     ((h c).1 0).trans (((dats m c).arrAt_in 0 rfl _).trans (A_eq m c 0)),
     ((h c).1 1).trans (((dats m c).arrAt_in 1 rfl _).trans (A_eq m c 1)),
     ((h c).1 2).trans (((dats m c).arrAt_in 2 rfl _).trans (A_eq m c 2))⟩) (run_main (F := Ideal) m ρ)

end Cert.KernelIdeal.HandValue

end
-- ==== Proof.RefValue.lean ====
/-
  The reference's four results at the extended reals, as the same whole-array functions of the arguments.
-/
import proofs.«121518_j4621384810785_1_alg».proof.Proof.Gen.ReferenceIdeal.Run
import proofs.«121518_j4621384810785_1_alg».proof.Proof.Gen.ReferenceIdeal.Read
import proofs.«121518_j4621384810785_1_alg».proof.Proof.Spec
import Idealize.ShloMosaic.Lib.ValueIdx
import Idealize.ShloMosaic.Lib.ValueIdxRank1
import Idealize.ShloMosaic.PureOps.Ideal.Laws

set_option maxRecDepth 16384

noncomputable section

open scoped BigOperators

namespace Cert.ReferenceIdeal.RefValue

open Idealize.ShloMosaic Idealize.ShloMosaic.TcCoe Idealize.ShloMosaic.ValueIdx
open Idealize.SL Idealize.SL.Sem
open Cert.ReferenceIdeal Cert.ReferenceIdeal.Gen

/-! ## The index maps of the stages, in coordinates -/

/-- Row `i`, column `k` of the N×16 matrix. -/
theorem idx3_eq (i : S10000.Idx) (k : Fin 16) : Read.idx_main_v3 i k = ix2 (Cert.Spec.row1 i) k :=
  funext fun a => by match a with | ⟨0, _⟩ => rfl | ⟨1, _⟩ => rfl

theorem idx8_eq (i : S10000.Idx) (k : Fin 16) : Read.idx_main_v8 i k = ix2 (Cert.Spec.row1 i) k :=
  funext fun a => by match a with | ⟨0, _⟩ => rfl | ⟨1, _⟩ => rfl

/-- The left factor of the product at (r, k), summand j, is A(r, j) … -/
theorem lidx1_eq (r : Fin 10000) (k : Fin 16) (j : Fin 10000) : Read.lidx_main_v1 (ix2 r k) j = ix2 r j :=
  funext fun a => by match a with | ⟨0, _⟩ => rfl | ⟨1, _⟩ => rfl

/-- … and the right factor is O(j, k). -/
theorem ridx1_eq (r : Fin 10000) (k : Fin 16) (j : Fin 10000) : Read.ridx_main_v1 (ix2 r k) j = ix2 j k :=
  funext fun a => by match a with | ⟨0, _⟩ => rfl | ⟨1, _⟩ => rfl

theorem lidx6_eq (r : Fin 10000) (k : Fin 16) (j : Fin 10000) : Read.lidx_main_v6 (ix2 r k) j = ix2 r j :=
  funext fun a => by match a with | ⟨0, _⟩ => rfl | ⟨1, _⟩ => rfl

theorem ridx6_eq (r : Fin 10000) (k : Fin 16) (j : Fin 10000) : Read.ridx_main_v6 (ix2 r k) j = ix2 j k :=
  funext fun a => by match a with | ⟨0, _⟩ => rfl | ⟨1, _⟩ => rfl

/-- Column `k`, row `j` of the N×16 matrix. -/
theorem idx11_eq (k : Fin 16) (j : Fin 10000) : Read.idx_main_v11 (ix1 k) j = ix2 j k :=
  funext fun a => by match a with | ⟨0, _⟩ => rfl | ⟨1, _⟩ => rfl

/-! ## The stages as the specification's functions -/

/-- The sum of every entry of A. -/
theorem total_eq (x0 : Cert.Spec.SNN.Idx → EReal) (i : S_.Idx) :
    Read.val_main_v0 (F := Ideal) x0 i = Cert.Spec.total x0 := by
  rw [Read.val_main_v0_apply, Read.val_main_cst_apply, Ideal.ofBits_def, Ideal.ofBits_zero_f32, zero_add]
  exact sum_idx2 x0

/-- Row r of O against row r of A·O. -/
theorem rowdot0_eq (x0 : Cert.Spec.SNN.Idx → EReal) (x2 : Cert.Spec.SNK.Idx → EReal) (i : S10000.Idx) :
    Read.val_main_v3 (F := Ideal) x0 x2 i = Cert.Spec.rowdot x0 x2 (Cert.Spec.row1 i) := by
  rw [Read.val_main_v3_apply, Read.val_main_cst_0_apply, Ideal.ofBits_def, Ideal.ofBits_zero_f32, zero_add]
  unfold Cert.Spec.rowdot Cert.Spec.prod
  refine Finset.sum_congr rfl fun k _ => ?_
  rw [idx3_eq, Read.val_main_v2_apply, Read.val_main_v1_apply, Ideal.mulf_def]
  refine congrArg (_ * ·) (Finset.sum_congr rfl fun j _ => ?_)
  rw [lidx1_eq, ridx1_eq]

/-- Row r of O against row r of B·O. -/
theorem rowdot1_eq (x1 : Cert.Spec.SNN.Idx → EReal) (x2 : Cert.Spec.SNK.Idx → EReal) (i : S10000.Idx) :
    Read.val_main_v8 (F := Ideal) x1 x2 i = Cert.Spec.rowdot x1 x2 (Cert.Spec.row1 i) := by
  rw [Read.val_main_v8_apply, Read.val_main_cst_1_apply, Ideal.ofBits_def, Ideal.ofBits_zero_f32, zero_add]
  unfold Cert.Spec.rowdot Cert.Spec.prod
  refine Finset.sum_congr rfl fun k _ => ?_
  rw [idx8_eq, Read.val_main_v7_apply, Read.val_main_v6_apply, Ideal.mulf_def]
  refine congrArg (_ * ·) (Finset.sum_congr rfl fun j _ => ?_)
  rw [lidx6_eq, ridx6_eq]

/-- The first raw row value over the total. -/
theorem loss0_eq (x0 : Cert.Spec.SNN.Idx → EReal) (x2 : Cert.Spec.SNK.Idx → EReal) (i : S10000.Idx) :
    Read.val_main_v5 (F := Ideal) x0 x2 i
      = Cert.Spec.loss (Cert.Spec.rowdot x0 x2) (Cert.Spec.total x0) (Cert.Spec.row1 i) := by
  rw [Read.val_main_v5_apply, Ideal.hostDivf_def, rowdot0_eq, Read.val_main_v4_apply, total_eq]
  rfl

/-- The second raw row value over the total. -/
theorem loss1_eq (x0 x1 : Cert.Spec.SNN.Idx → EReal) (x2 : Cert.Spec.SNK.Idx → EReal) (i : S10000.Idx) :
    Read.val_main_v10 (F := Ideal) x0 x1 x2 i
      = Cert.Spec.loss (Cert.Spec.rowdot x1 x2) (Cert.Spec.total x0) (Cert.Spec.row1 i) := by
  rw [Read.val_main_v10_apply, Ideal.hostDivf_def, rowdot1_eq, Read.val_main_v9_apply, total_eq]
  rfl

/-- Column k of O summed. -/
theorem colsum_eq (x2 : Cert.Spec.SNK.Idx → EReal) (k : Fin 16) :
    Read.val_main_v11 (F := Ideal) x2 (ix1 k) = Cert.Spec.colsum x2 k := by
  rw [Read.val_main_v11_apply, Read.val_main_cst_2_apply, Ideal.ofBits_def, Ideal.ofBits_zero_f32, zero_add]
  unfold Cert.Spec.colsum
  refine Finset.sum_congr rfl fun j _ => ?_
  rw [idx11_eq]

/-- The squared length of the vector of column sums. -/
theorem normsq_eq (x2 : Cert.Spec.SNK.Idx → EReal) (i : S_.Idx) :
    Read.val_main_call0_v1 (F := Ideal) x2 i = Cert.Spec.normsq x2 := by
  rw [Read.val_main_call0_v1_apply, Read.val_main_call0_cst_apply, Ideal.ofBits_def, Ideal.ofBits_zero_f32, zero_add,
    ← Equiv.sum_comp (idxEquiv1 (n := 16)).symm]
  unfold Cert.Spec.normsq
  refine Finset.sum_congr rfl fun k _ => ?_
  show Read.val_main_call0_v0 (F := Ideal) x2 (ix1 k) = _
  rw [Read.val_main_call0_v0_apply, Ideal.mulf_def, colsum_eq]

/-- The regularisation term, its factor the square root of the literal 16. -/
theorem reg_eq (x2 : Cert.Spec.SNK.Idx → EReal) (i : S_.Idx) :
    Read.val_main_v16 (F := Ideal) x2 i = Cert.Spec.reg x2 (Ideal.sqrt (Ideal.ofBits .f32 0x41800000#32)) := by
  rw [Read.val_main_v16_apply, Ideal.subf_def, Read.val_main_v15_apply, Ideal.mulf_def, Read.val_main_v13_apply,
    Ideal.hostDivf_def, Read.val_main_v12_apply, Ideal.hostUnary_sqrt_def, normsq_eq, Read.val_main_v14_apply,
    Ideal.hostUnary_sqrt_def, Read.val_main_cst_3_apply, Read.val_main_cst_4_apply, Read.val_main_cst_5_apply]
  rfl

/-- A sum over the indices of a length-N vector is the sum over the rows. -/
theorem sum_rows (f : Fin 10000 → EReal) : ∑ j : S10000.Idx, f (Cert.Spec.row1 j) = ∑ r : Fin 10000, f r :=
  Equiv.sum_comp (idxEquiv1 (n := 10000)) f

/-! ## The four results -/

theorem res0_eq (x0 x1 : Cert.Spec.SNN.Idx → EReal) (x2 : Cert.Spec.SNK.Idx → EReal) :
    Read.val_main_v21 (F := Ideal) x0 x1 x2
      = Cert.Spec.G0 x0 x1 x2 (Ideal.sqrt (Ideal.ofBits .f32 0x41800000#32)) := by
  funext i
  rw [Read.val_main_v21_apply, Ideal.hostNegf_def, Ideal.negf_def, Read.val_main_v20_apply, Ideal.subf_def,
    Read.val_main_v19_apply, Ideal.addf_def, Read.val_main_v17_apply, Read.val_main_v18_apply,
    Read.val_main_cst_6_apply, Read.val_main_cst_7_apply, Ideal.ofBits_def, Ideal.ofBits_zero_f32, zero_add, zero_add,
    reg_eq]
  simp only [loss0_eq, loss1_eq]
  rw [sum_rows (Cert.Spec.loss (Cert.Spec.rowdot x0 x2) (Cert.Spec.total x0)),
    sum_rows (Cert.Spec.loss (Cert.Spec.rowdot x1 x2) (Cert.Spec.total x0))]
  rfl

theorem res1_eq (x0 : Cert.Spec.SNN.Idx → EReal) (x2 : Cert.Spec.SNK.Idx → EReal) :
    Read.val_main_v22 (F := Ideal) x0 x2 = Cert.Spec.G1 x0 x2 := by
  funext i
  rw [Read.val_main_v22_apply, Ideal.hostNegf_def, Ideal.negf_def, loss0_eq]
  rfl

theorem res2_eq (x0 x1 : Cert.Spec.SNN.Idx → EReal) (x2 : Cert.Spec.SNK.Idx → EReal) :
    Read.val_main_v23 (F := Ideal) x0 x1 x2 = Cert.Spec.G2 x0 x1 x2 := by
  funext i
  rw [Read.val_main_v23_apply, Ideal.hostNegf_def, Ideal.negf_def, loss1_eq]
  rfl

theorem res3_eq (x0 x1 : Cert.Spec.SNN.Idx → EReal) (x2 : Cert.Spec.SNK.Idx → EReal) :
    Read.val_main_v25 (F := Ideal) x0 x1 x2 = Cert.Spec.G3 x0 x1 x2 := by
  funext i
  rw [Read.val_main_v25_apply, Ideal.hostNegf_def, Ideal.negf_def, Read.val_main_v24_apply, Ideal.addf_def, loss0_eq,
    loss1_eq]
  rfl

/-- THE REFERENCE'S RUN with its four results named: every weakly fair execution terminates, the results at the
    specification's functions of the argument arrays (the factor of the regularisation term spelt √16), the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v21)
          = Cert.Spec.G0 (m ((c.tc : Thread nD τ).loc main_arg0)) (m ((c.tc : Thread nD τ).loc main_arg1)) (m ((c.tc : Thread nD τ).loc main_arg2))
              (Ideal.sqrt (Ideal.ofBits .f32 0x41800000#32))
      ∧ r.2.mem ((c.tc : Thread nD τ).loc main_v22)
          = Cert.Spec.G1 (m ((c.tc : Thread nD τ).loc main_arg0)) (m ((c.tc : Thread nD τ).loc main_arg2))
      ∧ r.2.mem ((c.tc : Thread nD τ).loc main_v23)
          = Cert.Spec.G2 (m ((c.tc : Thread nD τ).loc main_arg0)) (m ((c.tc : Thread nD τ).loc main_arg1)) (m ((c.tc : Thread nD τ).loc main_arg2))
      ∧ r.2.mem ((c.tc : Thread nD τ).loc main_v25)
          = Cert.Spec.G3 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(h c).1.trans ((Read.val_main_v21_eq _ _ _).trans (res0_eq _ _ _)),
        (h c).2.1.trans ((Read.val_main_v22_eq _ _).trans (res1_eq _ _)),
        (h c).2.2.1.trans ((Read.val_main_v23_eq _ _ _).trans (res2_eq _ _ _)),
        (h c).2.2.2.1.trans ((Read.val_main_v25_eq _ _ _).trans (res3_eq _ _ _)),
        (h c).2.2.2.2⟩)
    (Cert.ReferenceIdeal.Value.run (F := Ideal) m ρ)

end Cert.ReferenceIdeal.RefValue

end
-- ==== Proof.lean ====
/-
  The certificate: the kernel's program and its reference compute the same four results on the extended reals.

  Both compute, from the N×N matrices A and B and the N×16 matrix O (N = 10000): per row r the quotients
  S r / T and A' r / T with S r = Σ_k O(r,k)·(A·O)(r,k), A' r the same with B, and T the sum of every entry of A;
  and the scalar −((Σ_r S r / T + Σ_r A' r / T) − (‖column sums of O‖ / 10000 · c − 1)), where c is the literal 4 in
  the kernel's program and √16 in the reference: the same extended real.  The kernel reaches S, A' and T by one
  pipelined region over blocks of 80 rows (T accumulated block by block), the reference by whole-array operations;
  sums on the extended reals may be regrouped freely, so no finiteness of the inputs is needed.
-/
import proofs.«121518_j4621384810785_1_alg».proof.Defs
import proofs.«121518_j4621384810785_1_alg».proof.Proof.Gen.Kernel
import proofs.«121518_j4621384810785_1_alg».proof.Proof.Gen.KernelIdeal
import proofs.«121518_j4621384810785_1_alg».proof.Proof.Gen.ReferenceIdeal
import proofs.«121518_j4621384810785_1_alg».proof.Proof.Gen.Pre_finite_inputs
import proofs.«121518_j4621384810785_1_alg».proof.Proof.K.Frame
import proofs.«121518_j4621384810785_1_alg».proof.Proof.KI.Frame
import proofs.«121518_j4621384810785_1_alg».proof.Proof.KI.Value
import proofs.«121518_j4621384810785_1_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and leaves its arguments as they were. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference's frame is its run with the results dropped. -/
theorem frame_ri : Cert.frame_ReferenceIdeal := fun m ρ _ =>
  (θ_run Cert.ReferenceIdeal.defs _ _).mono (fun _ h c => (h c).2.2.2.2) (Cert.ReferenceIdeal.RefValue.run m ρ)

/-- The ideal pass rewrote nothing. -/
theorem preserves : Cert.preserves_Kernel_KernelIdeal := trivial

/-- Both runs end at the specification's four functions of the (agreeing) arguments; the factor 4 of one is the √16
    of the other. -/
theorem algebraic : Cert.algebraic_KernelIdeal_ReferenceIdeal := by
  intro m ρ m' ρ' _ hagree
  refine ⟨_, _, _, _, Cert.KernelIdeal.HandValue.run m ρ, ?_⟩
  refine (θ_run Cert.ReferenceIdeal.defs _ _).mono (fun _ h c => ?_) (Cert.ReferenceIdeal.RefValue.run m' ρ')
  obtain ⟨h0, h1, h2, h3, ha0, ha1, ha2⟩ := h c
  obtain ⟨e0, e1, e2⟩ := hagree c
  refine ⟨?_, ?_, ?_, ?_, ha0, ha1, ha2⟩
  · rw [h0, e0, e1, e2, Cert.Spec.sqrt_sixteen]
  · rw [h1, e0, e2]
  · rw [h2, e0, e1, e2]
  · rw [h3, e0, e1, e2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
